-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v41)) (v1 : (c : Dev Cert.KernelIdeal.nD) → Buf (Elt Ideal) ((c.tc : Thread Cert.KernelIdeal.nD Cert.KernelIdeal.τ).loc Cert.KernelIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_v39) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_v52) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x256 : Shape := ⟨2, ![256, 256]⟩
abbrev S1280x256 : Shape := ⟨2, ![1280, 256]⟩
abbrev S1280 : Shape := ⟨1, ![1280]⟩
abbrev S100000x256 : Shape := ⟨2, ![100000, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel
  bcast_S_S1280x256 : S_.BroadcastsInDim S1280x256 (![] : Fin 0 → Fin S1280x256.rank)
  reducesTo_S1280x256_S_d0_1 : S1280x256.ReducesTo [0, 1] S_
  bcast_S_S1280 : S_.BroadcastsInDim S1280 (![] : Fin 0 → Fin S1280.rank)
  reducesTo_S1280_S_d0 : S1280.ReducesTo [0] S_
  bcast_S_S100000x256 : S_.BroadcastsInDim S100000x256 (![] : Fin 0 → Fin S100000x256.rank)
  reducesTo_S100000x256_S_d0_1 : S100000x256.ReducesTo [0, 1] S_

variable [Facts]

def fn_part2 {F : FTy → Type} [FloatOps F] (main_arg7 : FVec F S100000x256 .f32) (main_arg8 : FVec F S100000x256 .f32) (main_v33 : IVec S_ 1) : IVec S_ 1 :=
  let main_v34 : FVec F S100000x256 .f32 := Host.absf main_arg7
  let main_cst_12 : FVec F S_ .f32 := constant S_ .f32 0x7F800000#32
  let main_v35 : FVec F S100000x256 .f32 := broadcastInDim S100000x256 ![] bcast_S_S100000x256 main_cst_12
  let main_v36 : IVec S100000x256 1 := cmpf .olt main_v34 main_v35
  let main_c_13 : IVec S_ 1 := constantI S_ 1 1#1
  let main_v37 : IVec S_ 1 := (fun x v => Host.reduce IntOp.andi x v reducesTo_S100000x256_S_d0_1 h_S_) main_v36 main_c_13
  let main_v38 : IVec S_ 1 := andi main_v33 main_v37
  let main_v39 : FVec F S100000x256 .f32 := Host.absf main_arg8
  let main_cst_14 : FVec F S_ .f32 := constant S_ .f32 0x7F800000#32
  let main_v40 : FVec F S100000x256 .f32 := broadcastInDim S100000x256 ![] bcast_S_S100000x256 main_cst_14
  let main_v41 : IVec S100000x256 1 := cmpf .olt main_v39 main_v40
  let main_c_15 : IVec S_ 1 := constantI S_ 1 1#1
  let main_v42 : IVec S_ 1 := (fun x v => Host.reduce IntOp.andi x v reducesTo_S100000x256_S_d0_1 h_S_) main_v41 main_c_15
  let main_v43 : IVec S_ 1 := andi main_v38 main_v42
  main_v43

def fn_part1 {F : FTy → Type} [FloatOps F] (main_arg4 : FVec F S1280 .f32) (main_arg5 : FVec F S1280x256 .f32) (main_arg6 : FVec F S1280 .f32) (main_arg7 : FVec F S100000x256 .f32) (main_arg8 : FVec F S100000x256 .f32) (main_v13 : IVec S_ 1) (main_v16 : IVec S1280x256 1) : IVec S_ 1 :=
  let main_c_5 : IVec S_ 1 := constantI S_ 1 1#1
  let main_v17 : IVec S_ 1 := (fun x v => Host.reduce IntOp.andi x v reducesTo_S1280x256_S_d0_1 h_S_) main_v16 main_c_5
  let main_v18 : IVec S_ 1 := andi main_v13 main_v17
  let main_v19 : FVec F S1280 .f32 := Host.absf main_arg4
  let main_cst_6 : FVec F S_ .f32 := constant S_ .f32 0x7F800000#32
  let main_v20 : FVec F S1280 .f32 := broadcastInDim S1280 ![] bcast_S_S1280 main_cst_6
  let main_v21 : IVec S1280 1 := cmpf .olt main_v19 main_v20
  let main_c_7 : IVec S_ 1 := constantI S_ 1 1#1
  let main_v22 : IVec S_ 1 := (fun x v => Host.reduce IntOp.andi x v reducesTo_S1280_S_d0 h_S_) main_v21 main_c_7
  let main_v23 : IVec S_ 1 := andi main_v18 main_v22
  let main_v24 : FVec F S1280x256 .f32 := Host.absf main_arg5
  let main_cst_8 : FVec F S_ .f32 := constant S_ .f32 0x7F800000#32
  let main_v25 : FVec F S1280x256 .f32 := broadcastInDim S1280x256 ![] bcast_S_S1280x256 main_cst_8
  let main_v26 : IVec S1280x256 1 := cmpf .olt main_v24 main_v25
  let main_c_9 : IVec S_ 1 := constantI S_ 1 1#1
  let main_v27 : IVec S_ 1 := (fun x v => Host.reduce IntOp.andi x v reducesTo_S1280x256_S_d0_1 h_S_) main_v26 main_c_9
  let main_v28 : IVec S_ 1 := andi main_v23 main_v27
  let main_v29 : FVec F S1280 .f32 := Host.absf main_arg6
  let main_cst_10 : FVec F S_ .f32 := constant S_ .f32 0x7F800000#32
  let main_v30 : FVec F S1280 .f32 := broadcastInDim S1280 ![] bcast_S_S1280 main_cst_10
  let main_v31 : IVec S1280 1 := cmpf .olt main_v29 main_v30
  let main_c_11 : IVec S_ 1 := constantI S_ 1 1#1
  let main_v32 : IVec S_ 1 := (fun x v => Host.reduce IntOp.andi x v reducesTo_S1280_S_d0 h_S_) main_v31 main_c_11
  let main_v33 : IVec S_ 1 := andi main_v28 main_v32
  fn_part2 (F := F) main_arg7 main_arg8 main_v33

def fn {F : FTy → Type} [FloatOps F] (main_arg0 : FVec F S256x256 .f32) (main_arg1 : FVec F S256x256 .f32) (main_arg2 : FVec F S256x256 .f32) (main_arg3 : FVec F S1280x256 .f32) (main_arg4 : FVec F S1280 .f32) (main_arg5 : FVec F S1280x256 .f32) (main_arg6 : FVec F S1280 .f32) (main_arg7 : FVec F S100000x256 .f32) (main_arg8 : FVec F S100000x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  let main_v4 : FVec F S256x256 .f32 := Host.absf main_arg1
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg2
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S1280x256 .f32 := Host.absf main_arg3
  let main_cst_4 : FVec F S_ .f32 := constant S_ .f32 0x7F800000#32
  let main_v15 : FVec F S1280x256 .f32 := broadcastInDim S1280x256 ![] bcast_S_S1280x256 main_cst_4
  let main_v16 : IVec S1280x256 1 := cmpf .olt main_v14 main_v15
  fn_part1 (F := F) main_arg4 main_arg5 main_arg6 main_arg7 main_arg8 main_v13 main_v16
-- ==== Kernel.lean ====
abbrev S256x256 : Shape := ⟨2, ![256, 256]⟩
abbrev S1280x256 : Shape := ⟨2, ![1280, 256]⟩
abbrev S1280 : Shape := ⟨1, ![1280]⟩
abbrev S100000x256 : Shape := ⟨2, ![100000, 256]⟩
abbrev S256x1280 : Shape := ⟨2, ![256, 1280]⟩
abbrev S1x1280 : Shape := ⟨2, ![1, 1280]⟩
abbrev S256x1024 : Shape := ⟨2, ![256, 1024]⟩
abbrev S_ : Shape := ⟨0, ![]⟩
abbrev S256 : Shape := ⟨1, ![256]⟩
abbrev S256x1 : Shape := ⟨2, ![256, 1]⟩
abbrev S2x256x256 : Shape := ⟨3, ![2, 256, 256]⟩
abbrev S2x256x1 : Shape := ⟨3, ![2, 256, 1]⟩
abbrev S2000x256 : Shape := ⟨2, ![2000, 256]⟩
abbrev S1x256x256 : Shape := ⟨3, ![1, 256, 256]⟩
abbrev S1x256x1 : Shape := ⟨3, ![1, 256, 1]⟩
abbrev S2000 : Shape := ⟨1, ![2000]⟩
abbrev S2000x1 : Shape := ⟨2, ![2000, 1]⟩
abbrev S256x2000 : Shape := ⟨2, ![256, 2000]⟩

abbrev nBuf : Space → Nat
  | .hbm => 61
  | .vmem => 11
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S1280x256, .f32⟩
  | .hbm, ⟨4, _⟩ => ⟨S1280, .f32⟩
  | .hbm, ⟨5, _⟩ => ⟨S1280x256, .f32⟩
  | .hbm, ⟨6, _⟩ => ⟨S1280, .f32⟩
  | .hbm, ⟨7, _⟩ => ⟨S100000x256, .f32⟩
  | .hbm, ⟨8, _⟩ => ⟨S100000x256, .f32⟩
  | .hbm, ⟨9, _⟩ => ⟨S256x1280, .f32⟩
  | .hbm, ⟨10, _⟩ => ⟨S256x1280, .f32⟩
  | .hbm, ⟨11, _⟩ => ⟨S1x1280, .f32⟩
  | .hbm, ⟨12, _⟩ => ⟨S256x1280, .f32⟩
  | .hbm, ⟨13, _⟩ => ⟨S256x1280, .f32⟩
  | .hbm, ⟨14, _⟩ => ⟨S256x1280, .f32⟩
  | .hbm, ⟨15, _⟩ => ⟨S256x1280, .f32⟩
  | .hbm, ⟨16, _⟩ => ⟨S1x1280, .f32⟩
  | .hbm, ⟨17, _⟩ => ⟨S256x1280, .f32⟩
  | .hbm, ⟨18, _⟩ => ⟨S256x1280, .f32⟩
  | .hbm, ⟨19, _⟩ => ⟨S256x1280, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S256x256, .f32⟩
  | .hbm, ⟨38, _⟩ => ⟨S256x256, .f32⟩
  | .hbm, ⟨39, _⟩ => ⟨S_, .f32⟩
  | .hbm, ⟨40, _⟩ => ⟨S256, .f32⟩
  | .hbm, ⟨41, _⟩ => ⟨S256x1, .f32⟩
  | .hbm, ⟨42, _⟩ => ⟨S256x1, .f32⟩
  | .hbm, ⟨43, _⟩ => ⟨S_, .f32⟩
  | .hbm, ⟨44, _⟩ => ⟨S256x1, .f32⟩
  | .hbm, ⟨45, _⟩ => ⟨S256x1, .f32⟩
  | .hbm, ⟨46, _⟩ => ⟨S256x256, .f32⟩
  | .hbm, ⟨47, _⟩ => ⟨S256x256, .f32⟩
  | .hbm, ⟨48, _⟩ => ⟨S2x256x256, .f32⟩
  | .hbm, ⟨49, _⟩ => ⟨S2x256x1, .f32⟩
  | .hbm, ⟨50, _⟩ => ⟨S_, .f32⟩
  | .hbm, ⟨51, _⟩ => ⟨S256x256, .f32⟩
  | .hbm, ⟨52, _⟩ => ⟨S_, .f32⟩
  | .hbm, ⟨53, _⟩ => ⟨S256x1, .f32⟩
  | .hbm, ⟨54, _⟩ => ⟨S256x256, .f32⟩
  | .hbm, ⟨55, _⟩ => ⟨S256x256, .f32⟩
  | .hbm, ⟨56, _⟩ => ⟨S256x256, .f32⟩
  | .hbm, ⟨57, _⟩ => ⟨S256x256, .f32⟩
  | .hbm, ⟨58, _⟩ => ⟨S256x256, .f32⟩
  | .hbm, ⟨59, _⟩ => ⟨S256x256, .f32⟩
  | .hbm, ⟨60, _⟩ => ⟨S256x256, .f32⟩
  | .local _ .vmem, ⟨0, _⟩ => ⟨S256x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S2000x256, .f32⟩
  | .local _ .vmem, ⟨5, _⟩ => ⟨S1x256x256, .f32⟩
  | .local _ .vmem, ⟨6, _⟩ => ⟨S1x256x256, .f32⟩
  | .local _ .vmem, ⟨7, _⟩ => ⟨S1x256x1, .f32⟩
  | .local _ .vmem, ⟨8, _⟩ => ⟨S1x256x1, .f32⟩
  | .local _ .vmem, ⟨9, _⟩ => ⟨S256x256, .f32⟩
  | .local _ .vmem, ⟨10, _⟩ => ⟨S256x1, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_cst : Ref sig .tc := ⟨.hbm, 39, rfl⟩
abbrev main_call0_v1 : Ref sig .tc := ⟨.hbm, 40, rfl⟩
abbrev main_call0_v2 : Ref sig .tc := ⟨.hbm, 41, rfl⟩
abbrev main_v27 : Ref sig .tc := ⟨.hbm, 42, rfl⟩
abbrev main_cst_1 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32_0 : Ref sig .tc := ⟨.hbm, 48, rfl⟩
abbrev main_v32_1 : Ref sig .tc := ⟨.hbm, 49, rfl⟩
abbrev main_cst_2 : Ref sig .tc := ⟨.hbm, 50, rfl⟩
abbrev main_v33 : Ref sig .tc := ⟨.hbm, 51, rfl⟩
abbrev main_cst_3 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg1 : BitVec 32 := BitVec.ofNat 32 (i 1).val
  let c24_i32 : BitVec 32 := 24#32
  let v35 : BitVec 1 := Scalar.cmpi .eq arg1 c24_i32
  let v36 : BitVec 32 := Scalar.extui v35
  let c0_i32_18 : BitVec 32 := 0#32
  let v37 : BitVec 1 := Scalar.cmpi .ne v36 c0_i32_18
  v37

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.muli arg0 c25_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S2000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  transposes_S1280x256_S256x1280_1_0 : S1280x256.Transposes [1, 0] S256x1280
  bcast_S1280_S1x1280_1 : S1280.BroadcastsInDim S1x1280 (![1] : Fin 1 → Fin S1x1280.rank)
  bcast_S1x1280_S256x1280_0_1 : S1x1280.BroadcastsInDim S256x1280 (![0, 1] : Fin 2 → Fin S256x1280.rank)
  slices_S256x1280_S256x1024_0_0 : S256x1280.Slices ![0, 0] S256x1024
  bcast_S_S256x1024 : S_.BroadcastsInDim S256x1024 (![] : Fin 0 → Fin S256x1024.rank)
  slices_S256x1024_S256x256_0_0 : S256x1024.Slices ![0, 0] S256x256
  slices_S256x1024_S256x256_0_256 : S256x1024.Slices ![0, 256] S256x256
  slices_S256x1024_S256x256_0_512 : S256x1024.Slices ![0, 512] S256x256
  slices_S256x1024_S256x256_0_768 : S256x1024.Slices ![0, 768] S256x256
  slices_S256x1280_S256x256_0_1024 : S256x1280.Slices ![0, 1024] S256x256
  reducesTo_S256x256_S256_d1 : S256x256.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x256_0_1 : S256x1.BroadcastsInDim S256x256 (![0, 1] : Fin 2 → Fin S256x256.rank)
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S2000x256_S2000x256_0_0 : ∀ a, (![0, 0] : Fin 2 → Nat) a + S2000x256.size a ≤ S2000x256.size a
  h_S2000x256 : 0 < S2000x256.numel
  reduces_S2000x256_S2000 : S2000x256.Reduces [1] S2000
  shapeCasts_S2000_S2000x1 : S2000.ShapeCasts S2000x1
  broadcasts_S2000x1_S2000x256 : S2000x1.Broadcasts S2000x256
  bitsLt_bf16_f32 : FTy.bits .bf16 < FTy.bits .f32
  transposes_S2000x256_p1_0_S256x2000 : S2000x256.Transposes [1, 0] S256x2000
  reduces_S256x2000_S256 : S256x2000.Reduces [1] S256
  shapeCasts_S256_S256x1 : S256.ShapeCasts S256x1
  inb_S1x256x256_S1x256x256_0_0_0 : ∀ a, (![0, 0, 0] : Fin 3 → Nat) a + S1x256x256.size a ≤ S1x256x256.size a
  h_S1x256x256 : 0 < S1x256x256.numel
  shapeCasts_S1x256x256_S256x256 : S1x256x256.ShapeCasts S256x256
  shapeCasts_S256x256_S1x256x256 : S256x256.ShapeCasts S1x256x256
  inb_S1x256x1_S1x256x1_0_0_0 : ∀ a, (![0, 0, 0] : Fin 3 → Nat) a + S1x256x1.size a ≤ S1x256x1.size a
  h_S1x256x1 : 0 < S1x256x1.numel
  shapeCasts_S1x256x1_S256x1 : S1x256x1.ShapeCasts S256x1
  shapeCasts_S256x1_S1x256x1 : S256x1.ShapeCasts S1x256x1
  reducesTo_S2x256x256_S256x256_d0 : S2x256x256.ReducesTo [0] S256x256
  reducesTo_S2x256x1_S256x1_d0 : S2x256x1.ReducesTo [0] S256x1
  dot_S256x256_S256x1280_S256x1280_1_0_0_1_n_n_wf : DotDims.WF S256x256 S256x1280 S256x1280 [1] [0] [0] [1] [] []
  dot_S256x256_S256x2000_S256x2000_1_0_0_1_n_n_wf : DotDims.WF S256x256 S256x2000 S256x2000 [1] [0] [0] [1] [] []
  dot_S256x2000_S2000x256_S256x256_1_0_0_1_n_n_wf : DotDims.WF S256x2000 S2000x256 S256x256 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S256x256.size a ≤ S256x256.size a
  hwx0_0 : ∀ i : grid0.Coords, EltTy.bits .f32 = 32 ∨ (Rect.block (s := S256x256) S256x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S100000x256.size a
  hwx0_1 : ∀ i : grid0.Coords, EltTy.bits .f32 = 32 ∨ (Rect.block (s := S100000x256) S2000x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x256.size a ≤ S100000x256.size a
  hwx0_2 : ∀ i : grid0.Coords, EltTy.bits .f32 = 32 ∨ (Rect.block (s := S100000x256) S2000x256.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x256x256.size a ≤ S2x256x256.size a
  hwx0_3 : ∀ i : grid0.Coords, EltTy.bits .f32 = 32 ∨ (Rect.block (s := S2x256x256) S1x256x256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1.size a ≤ S2x256x1.size a
  hwx0_4 : ∀ i : grid0.Coords, EltTy.bits .f32 = 32 ∨ (Rect.block (s := S2x256x1) S1x256x1.size (cc0_transform_4 i) (hinb0_4 i)).WholeWords (EltTy.packing .f32)

variable [Facts₀]

def dot_S256x256_S256x1280_S256x1280_1_0_0_1_n_n : DotDims S256x256 S256x1280 S256x1280 where
  lhsContracting := [1]
  rhsContracting := [0]
  lhsNonContracting := [0]
  rhsNonContracting := [1]
  lhsBatch := []
  rhsBatch := []
  wf := dot_S256x256_S256x1280_S256x1280_1_0_0_1_n_n_wf
def dot_S256x256_S256x2000_S256x2000_1_0_0_1_n_n : DotDims S256x256 S256x2000 S256x2000 where
  lhsContracting := [1]
  rhsContracting := [0]
  lhsNonContracting := [0]
  rhsNonContracting := [1]
  lhsBatch := []
  rhsBatch := []
  wf := dot_S256x256_S256x2000_S256x2000_1_0_0_1_n_n_wf
def dot_S256x2000_S2000x256_S256x256_1_0_0_1_n_n : DotDims S256x2000 S2000x256 S256x256 where
  lhsContracting := [1]
  rhsContracting := [0]
  lhsNonContracting := [0]
  rhsNonContracting := [1]
  lhsBatch := []
  rhsBatch := []
  wf := dot_S256x2000_S2000x256_S256x256_1_0_0_1_n_n_wf

abbrev win0_0 : Pipeline.Window sig grid0 :=
  Pipeline.Window.ofSpec (Memref.whole main_v31) S256x256.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg7) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S2000x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v32_0) S1x256x256.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v32_1) S1x256x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun i => !(k0_cond2 i == 1#1) | 4 => fun i => !(k0_cond2 i == 1#1) | ⟨_ + 5, h⟩ => absurd h (Nat.not_lt.2 (Nat.le_add_left _ _))

class Facts : Prop extends Facts₀ where

variable [Facts]
-- ==== ReferenceIdeal.lean ====
abbrev S256x256 : Shape := ⟨2, ![256, 256]⟩
abbrev S1280x256 : Shape := ⟨2, ![1280, 256]⟩
abbrev S1280 : Shape := ⟨1, ![1280]⟩
abbrev S100000x256 : Shape := ⟨2, ![100000, 256]⟩
abbrev S256x1280 : Shape := ⟨2, ![256, 1280]⟩
abbrev S1x1280 : Shape := ⟨2, ![1, 1280]⟩
abbrev S256x1024 : Shape := ⟨2, ![256, 1024]⟩
abbrev S_ : Shape := ⟨0, ![]⟩
abbrev S256 : Shape := ⟨1, ![256]⟩
abbrev S256x1 : Shape := ⟨2, ![256, 1]⟩
abbrev S100000 : Shape := ⟨1, ![100000]⟩
abbrev S100000x1 : Shape := ⟨2, ![100000, 1]⟩
abbrev S256x100000 : Shape := ⟨2, ![256, 100000]⟩

abbrev nBuf : Space → Nat
  | .hbm => 79
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x256, .f32⟩
  | .hbm, ⟨2, _⟩ => ⟨S256x256, .f32⟩
  | .hbm, ⟨3, _⟩ => ⟨S1280x256, .f32⟩
  | .hbm, ⟨4, _⟩ => ⟨S1280, .f32⟩
  | .hbm, ⟨5, _⟩ => ⟨S1280x256, .f32⟩
  | .hbm, ⟨6, _⟩ => ⟨S1280, .f32⟩
  | .hbm, ⟨7, _⟩ => ⟨S100000x256, .f32⟩
  | .hbm, ⟨8, _⟩ => ⟨S100000x256, .f32⟩
  | .hbm, ⟨9, _⟩ => ⟨S256x1280, .f32⟩
  | .hbm, ⟨10, _⟩ => ⟨S256x1280, .f32⟩
  | .hbm, ⟨11, _⟩ => ⟨S1x1280, .f32⟩
  | .hbm, ⟨12, _⟩ => ⟨S256x1280, .f32⟩
  | .hbm, ⟨13, _⟩ => ⟨S256x1280, .f32⟩
  | .hbm, ⟨14, _⟩ => ⟨S256x1280, .f32⟩
  | .hbm, ⟨15, _⟩ => ⟨S256x1280, .f32⟩
  | .hbm, ⟨16, _⟩ => ⟨S1x1280, .f32⟩
  | .hbm, ⟨17, _⟩ => ⟨S256x1280, .f32⟩
  | .hbm, ⟨18, _⟩ => ⟨S256x1280, .f32⟩
  | .hbm, ⟨19, _⟩ => ⟨S256x1280, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S_, .f32⟩
  | .hbm, ⟨24, _⟩ => ⟨S256x1024, .f32⟩
  | .hbm, ⟨25, _⟩ => ⟨S256x1024, .f32⟩
  | .hbm, ⟨26, _⟩ => ⟨S_, .f32⟩
  | .hbm, ⟨27, _⟩ => ⟨S256x1024, .f32⟩
  | .hbm, ⟨28, _⟩ => ⟨S256x1024, .f32⟩
  | .hbm, ⟨29, _⟩ => ⟨S256x256, .f32⟩
  | .hbm, ⟨30, _⟩ => ⟨S256x256, .f32⟩
  | .hbm, ⟨31, _⟩ => ⟨S256x256, .f32⟩
  | .hbm, ⟨32, _⟩ => ⟨S256x256, .f32⟩
  | .hbm, ⟨33, _⟩ => ⟨S256x256, .f32⟩
  | .hbm, ⟨34, _⟩ => ⟨S256x256, .f32⟩
  | .hbm, ⟨35, _⟩ => ⟨S256x256, .f32⟩
  | .hbm, ⟨36, _⟩ => ⟨S256x256, .f32⟩
  | .hbm, ⟨37, _⟩ => ⟨S256x256, .f32⟩
  | .hbm, ⟨38, _⟩ => ⟨S256x256, .f32⟩
  | .hbm, ⟨39, _⟩ => ⟨S_, .f32⟩
  | .hbm, ⟨40, _⟩ => ⟨S256, .f32⟩
  | .hbm, ⟨41, _⟩ => ⟨S256x1, .f32⟩
  | .hbm, ⟨42, _⟩ => ⟨S256x1, .f32⟩
  | .hbm, ⟨43, _⟩ => ⟨S_, .f32⟩
  | .hbm, ⟨44, _⟩ => ⟨S256x1, .f32⟩
  | .hbm, ⟨45, _⟩ => ⟨S256x1, .f32⟩
  | .hbm, ⟨46, _⟩ => ⟨S256x256, .f32⟩
  | .hbm, ⟨47, _⟩ => ⟨S256x256, .f32⟩
  | .hbm, ⟨48, _⟩ => ⟨S100000x256, .f32⟩
  | .hbm, ⟨49, _⟩ => ⟨S_, .f32⟩
  | .hbm, ⟨50, _⟩ => ⟨S100000, .f32⟩
  | .hbm, ⟨51, _⟩ => ⟨S100000x1, .f32⟩
  | .hbm, ⟨52, _⟩ => ⟨S100000x1, .f32⟩
  | .hbm, ⟨53, _⟩ => ⟨S_, .f32⟩
  | .hbm, ⟨54, _⟩ => ⟨S100000x1, .f32⟩
  | .hbm, ⟨55, _⟩ => ⟨S100000x1, .f32⟩
  | .hbm, ⟨56, _⟩ => ⟨S100000x256, .f32⟩
  | .hbm, ⟨57, _⟩ => ⟨S100000x256, .f32⟩
  | .hbm, ⟨58, _⟩ => ⟨S256x100000, .f32⟩
  | .hbm, ⟨59, _⟩ => ⟨S_, .f32⟩
  | .hbm, ⟨60, _⟩ => ⟨S256, .f32⟩
  | .hbm, ⟨61, _⟩ => ⟨S_, .f32⟩
  | .hbm, ⟨62, _⟩ => ⟨S256, .f32⟩
  | .hbm, ⟨63, _⟩ => ⟨S256, .f32⟩
  | .hbm, ⟨64, _⟩ => ⟨S256x1, .f32⟩
  | .hbm, ⟨65, _⟩ => ⟨S256x100000, .f32⟩
  | .hbm, ⟨66, _⟩ => ⟨S256x100000, .f32⟩
  | .hbm, ⟨67, _⟩ => ⟨S256x100000, .f32⟩
  | .hbm, ⟨68, _⟩ => ⟨S_, .f32⟩
  | .hbm, ⟨69, _⟩ => ⟨S256, .f32⟩
  | .hbm, ⟨70, _⟩ => ⟨S256x1, .f32⟩
  | .hbm, ⟨71, _⟩ => ⟨S256x100000, .f32⟩
  | .hbm, ⟨72, _⟩ => ⟨S256x100000, .f32⟩
  | .hbm, ⟨73, _⟩ => ⟨S256x256, .f32⟩
  | .hbm, ⟨74, _⟩ => ⟨S256x256, .f32⟩
  | .hbm, ⟨75, _⟩ => ⟨S256x256, .f32⟩
  | .hbm, ⟨76, _⟩ => ⟨S256x256, .f32⟩
  | .hbm, ⟨77, _⟩ => ⟨S256x256, .f32⟩
  | .hbm, ⟨78, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst : Ref sig .tc := ⟨.hbm, 23, rfl⟩
abbrev main_v14 : Ref sig .tc := ⟨.hbm, 24, rfl⟩
abbrev main_v15 : Ref sig .tc := ⟨.hbm, 25, rfl⟩
abbrev main_cst_0 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_cst : Ref sig .tc := ⟨.hbm, 39, rfl⟩
abbrev main_call0_v1 : Ref sig .tc := ⟨.hbm, 40, rfl⟩
abbrev main_call0_v2 : Ref sig .tc := ⟨.hbm, 41, rfl⟩
abbrev main_v27 : Ref sig .tc := ⟨.hbm, 42, rfl⟩
abbrev main_cst_1 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_call1_v0 : Ref sig .tc := ⟨.hbm, 48, rfl⟩
abbrev main_call1_cst : Ref sig .tc := ⟨.hbm, 49, rfl⟩
abbrev main_call1_v1 : Ref sig .tc := ⟨.hbm, 50, rfl⟩
abbrev main_call1_v2 : Ref sig .tc := ⟨.hbm, 51, rfl⟩
abbrev main_v32 : Ref sig .tc := ⟨.hbm, 52, rfl⟩
abbrev main_cst_2 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_3 : Ref sig .tc := ⟨.hbm, 59, rfl⟩
abbrev main_v38 : Ref sig .tc := ⟨.hbm, 60, rfl⟩
abbrev main_cst_4 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_5 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩

abbrev nD : Nat := 1
abbrev τ : Topo := Topo.v7x

variable {F : FTy → Type} [FloatOps F]

class Facts₀ : Prop where
  transposes_S1280x256_S256x1280_1_0 : S1280x256.Transposes [1, 0] S256x1280
  bcast_S1280_S1x1280_1 : S1280.BroadcastsInDim S1x1280 (![1] : Fin 1 → Fin S1x1280.rank)
  bcast_S1x1280_S256x1280_0_1 : S1x1280.BroadcastsInDim S256x1280 (![0, 1] : Fin 2 → Fin S256x1280.rank)
  slices_S256x1280_S256x1024_0_0 : S256x1280.Slices ![0, 0] S256x1024
  bcast_S_S256x1024 : S_.BroadcastsInDim S256x1024 (![] : Fin 0 → Fin S256x1024.rank)
  slices_S256x1024_S256x256_0_0 : S256x1024.Slices ![0, 0] S256x256
  slices_S256x1024_S256x256_0_256 : S256x1024.Slices ![0, 256] S256x256
  slices_S256x1024_S256x256_0_512 : S256x1024.Slices ![0, 512] S256x256
  slices_S256x1024_S256x256_0_768 : S256x1024.Slices ![0, 768] S256x256
  slices_S256x1280_S256x256_0_1024 : S256x1280.Slices ![0, 1024] S256x256
  reducesTo_S256x256_S256_d1 : S256x256.ReducesTo [1] S256
  h_S_ : 0 < S_.numel
  bcast_S256_S256x1_0 : S256.BroadcastsInDim S256x1 (![0] : Fin 1 → Fin S256x1.rank)
  bcast_S_S256x1 : S_.BroadcastsInDim S256x1 (![] : Fin 0 → Fin S256x1.rank)
  bcast_S256x1_S256x256_0_1 : S256x1.BroadcastsInDim S256x256 (![0, 1] : Fin 2 → Fin S256x256.rank)
  reducesTo_S100000x256_S100000_d1 : S100000x256.ReducesTo [1] S100000
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x256_0_1 : S100000x1.BroadcastsInDim S100000x256 (![0, 1] : Fin 2 → Fin S100000x256.rank)
  reducesTo_S256x100000_S256_d1 : S256x100000.ReducesTo [1] S256
  bcast_S_S256 : S_.BroadcastsInDim S256 (![] : Fin 0 → Fin S256.rank)
  bcast_S256x1_S256x100000_0_1 : S256x1.BroadcastsInDim S256x100000 (![0, 1] : Fin 2 → Fin S256x100000.rank)
  dot_S256x256_S256x1280_S256x1280_1_0_0_1_n_n_wf : DotDims.WF S256x256 S256x1280 S256x1280 [1] [0] [0] [1] [] []
  dot_S256x256_S100000x256_S256x100000_1_1_0_0_n_n_wf : DotDims.WF S256x256 S100000x256 S256x100000 [1] [1] [0] [0] [] []
  dot_S256x100000_S100000x256_S256x256_1_0_0_1_n_n_wf : DotDims.WF S256x100000 S100000x256 S256x256 [1] [0] [0] [1] [] []

variable [Facts₀]

def dot_S256x256_S256x1280_S256x1280_1_0_0_1_n_n : DotDims S256x256 S256x1280 S256x1280 where
  lhsContracting := [1]
  rhsContracting := [0]
  lhsNonContracting := [0]
  rhsNonContracting := [1]
  lhsBatch := []
  rhsBatch := []
  wf := dot_S256x256_S256x1280_S256x1280_1_0_0_1_n_n_wf
def dot_S256x256_S100000x256_S256x100000_1_1_0_0_n_n : DotDims S256x256 S100000x256 S256x100000 where
  lhsContracting := [1]
  rhsContracting := [1]
  lhsNonContracting := [0]
  rhsNonContracting := [0]
  lhsBatch := []
  rhsBatch := []
  wf := dot_S256x256_S100000x256_S256x100000_1_1_0_0_n_n_wf
def dot_S256x100000_S100000x256_S256x256_1_0_0_1_n_n : DotDims S256x100000 S100000x256 S256x256 where
  lhsContracting := [1]
  rhsContracting := [0]
  lhsNonContracting := [0]
  rhsNonContracting := [1]
  lhsBatch := []
  rhsBatch := []
  wf := dot_S256x100000_S100000x256_S256x256_1_0_0_1_n_n_wf

class Facts : Prop extends Facts₀ where

variable [Facts]
-- ==== Proof.Pieces.lean ====
import proofs.«401784_j47631187312927_3_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-!
# What each control case leaves behind, as the body's own arithmetic

The body runs in three control cases: the first step of a half (reset, then accumulate), a middle step
(accumulate), the last step of a half (accumulate, then copy both accumulators to the output blocks). Whatever
the case, the numerator scratch ends at `k0_pay7 keys vals queries (what it held)` and the denominator scratch
at `k0_pay6 keys queries (what it held)`, where at a first step "what it held" is the zero block just stored;
at a last step the output blocks are those two with a leading unit axis added (`k0_pay1`, `k0_pay2`).
Every load and store goes through the whole staging buffer at zero offsets, so a store leaves its payload and a
load reads the contents.
-/

/-- First step, numerator: zeros stored, read back, the tile's contribution added. -/
theorem num_first (c : Dev nD) (i : grid0.Coords) (a2 : Memref sig .tc .vmem S256x256 .f32) (h2 : a2.IsWhole) (a3 : Memref sig .tc .vmem S2000x256 .f32) (h3 : a3.IsWhole) (a4 : Memref sig .tc .vmem S2000x256 .f32) (h4 : a4.IsWhole) (a5 : Memref sig .tc .vmem S1x256x256 .f32) (h5 : a5.IsWhole) (a6 : Memref sig .tc .vmem S1x256x1 .f32) (h6 : a6.IsWhole) (a7 : Memref sig .tc .vmem S256x256 .f32) (h7 : a7.IsWhole) (a8 : Memref sig .tc .vmem S256x1 .f32) (h8 : a8.IsWhole) (hc0 : cond0_0 i) (hc1 : ¬cond0_1 i) (x0 : Vec F S256x256 .f32) (x1 : Vec F S2000x256 .f32) (x2 : Vec F S2000x256 .f32) :
    sout0_A_0 c i a2 h2 a3 h3 a4 h4 a5 h5 a6 h6 a7 h7 a8 h8 hc0 hc1 x0 x1 x2 = k0_pay7 x1 x2 x0 k0_pay3 := by
  unfold sout0_A_0
  rw [View.read_writes_eq_canon _ _ _ (scover0_A_0 c i a2 h2 a3 h3 a4 h4 a5 h5 a6 h6 a7 h7 a8 h8 hc0 hc1 x0 x1 x2)]
  unfold kernelRun0_A
  dsimp only
  sl_unfold_words
  rw [View.canon_cons_unit_zero (S := S256x256) hz2, View.readCov_unit_zero (S := S256x256) _ hz2]
  simp only [View.readAt_eq_ld, h2.read_unread, h3.read_unread, h4.read_unread, h7.read_unread, h8.read_unread,
    View.ld_unit_zero (S := S256x256) hz2, View.ld_unit_zero (S := S2000x256) hz2, View.ld_unit_zero (S := S256x1) hz2]

/-- First step, denominator: zeros stored, read back, the tile's weights added. -/
theorem den_first (c : Dev nD) (i : grid0.Coords) (a2 : Memref sig .tc .vmem S256x256 .f32) (h2 : a2.IsWhole) (a3 : Memref sig .tc .vmem S2000x256 .f32) (h3 : a3.IsWhole) (a4 : Memref sig .tc .vmem S2000x256 .f32) (h4 : a4.IsWhole) (a5 : Memref sig .tc .vmem S1x256x256 .f32) (h5 : a5.IsWhole) (a6 : Memref sig .tc .vmem S1x256x1 .f32) (h6 : a6.IsWhole) (a7 : Memref sig .tc .vmem S256x256 .f32) (h7 : a7.IsWhole) (a8 : Memref sig .tc .vmem S256x1 .f32) (h8 : a8.IsWhole) (hc0 : cond0_0 i) (hc1 : ¬cond0_1 i) (x0 : Vec F S256x256 .f32) (x1 : Vec F S2000x256 .f32) (x2 : Vec F S2000x256 .f32) :
    sout0_A_1 c i a2 h2 a3 h3 a4 h4 a5 h5 a6 h6 a7 h7 a8 h8 hc0 hc1 x0 x1 x2 = k0_pay6 x1 x0 k0_pay4 := by
  unfold sout0_A_1
  rw [View.read_writes_eq_canon _ _ _ (scover0_A_1 c i a2 h2 a3 h3 a4 h4 a5 h5 a6 h6 a7 h7 a8 h8 hc0 hc1 x0 x1 x2)]
  unfold kernelRun0_A
  dsimp only
  sl_unfold_words
  rw [View.canon_cons_unit_zero (S := S256x1) hz2, View.readCov_unit_zero (S := S256x1) _ hz2]
  simp only [View.readAt_eq_ld, h2.read_unread, h3.read_unread, h4.read_unread, h7.read_unread, h8.read_unread,
    View.ld_unit_zero (S := S256x256) hz2, View.ld_unit_zero (S := S2000x256) hz2, View.ld_unit_zero (S := S256x1) hz2]

/-- Middle step, numerator. -/
theorem num_mid (c : Dev nD) (i : grid0.Coords) (a2 : Memref sig .tc .vmem S256x256 .f32) (h2 : a2.IsWhole) (a3 : Memref sig .tc .vmem S2000x256 .f32) (h3 : a3.IsWhole) (a4 : Memref sig .tc .vmem S2000x256 .f32) (h4 : a4.IsWhole) (a5 : Memref sig .tc .vmem S1x256x256 .f32) (h5 : a5.IsWhole) (a6 : Memref sig .tc .vmem S1x256x1 .f32) (h6 : a6.IsWhole) (a7 : Memref sig .tc .vmem S256x256 .f32) (h7 : a7.IsWhole) (a8 : Memref sig .tc .vmem S256x1 .f32) (h8 : a8.IsWhole) (hc0 : ¬cond0_0 i) (hc1 : ¬cond0_1 i) (x0 : Vec F S256x256 .f32) (x1 : Vec F S2000x256 .f32) (x2 : Vec F S2000x256 .f32) (xs0 : Vec F S256x256 .f32) (xs1 : Vec F S256x1 .f32) :
    sout0_B_0 c i a2 h2 a3 h3 a4 h4 a5 h5 a6 h6 a7 h7 a8 h8 hc0 hc1 x0 x1 x2 xs0 xs1 = k0_pay7 x1 x2 x0 xs0 := by
  unfold sout0_B_0
  rw [View.read_writes_eq_canon _ _ _ (scover0_B_0 c i a2 h2 a3 h3 a4 h4 a5 h5 a6 h6 a7 h7 a8 h8 hc0 hc1 x0 x1 x2 xs0 xs1)]
  unfold kernelRun0_B
  dsimp only
  sl_unfold_words
  rw [View.canon_unit_zero hz2]
  simp only [View.readAt_eq_ld, h2.read_unread, h3.read_unread, h4.read_unread, h7.read_unread, h8.read_unread,
    View.ld_unit_zero (S := S256x256) hz2, View.ld_unit_zero (S := S2000x256) hz2, View.ld_unit_zero (S := S256x1) hz2]

/-- Middle step, denominator. -/
theorem den_mid (c : Dev nD) (i : grid0.Coords) (a2 : Memref sig .tc .vmem S256x256 .f32) (h2 : a2.IsWhole) (a3 : Memref sig .tc .vmem S2000x256 .f32) (h3 : a3.IsWhole) (a4 : Memref sig .tc .vmem S2000x256 .f32) (h4 : a4.IsWhole) (a5 : Memref sig .tc .vmem S1x256x256 .f32) (h5 : a5.IsWhole) (a6 : Memref sig .tc .vmem S1x256x1 .f32) (h6 : a6.IsWhole) (a7 : Memref sig .tc .vmem S256x256 .f32) (h7 : a7.IsWhole) (a8 : Memref sig .tc .vmem S256x1 .f32) (h8 : a8.IsWhole) (hc0 : ¬cond0_0 i) (hc1 : ¬cond0_1 i) (x0 : Vec F S256x256 .f32) (x1 : Vec F S2000x256 .f32) (x2 : Vec F S2000x256 .f32) (xs0 : Vec F S256x256 .f32) (xs1 : Vec F S256x1 .f32) :
    sout0_B_1 c i a2 h2 a3 h3 a4 h4 a5 h5 a6 h6 a7 h7 a8 h8 hc0 hc1 x0 x1 x2 xs0 xs1 = k0_pay6 x1 x0 xs1 := by
  unfold sout0_B_1
  rw [View.read_writes_eq_canon _ _ _ (scover0_B_1 c i a2 h2 a3 h3 a4 h4 a5 h5 a6 h6 a7 h7 a8 h8 hc0 hc1 x0 x1 x2 xs0 xs1)]
  unfold kernelRun0_B
  dsimp only
  sl_unfold_words
  rw [View.canon_unit_zero hz2]
  simp only [View.readAt_eq_ld, h2.read_unread, h3.read_unread, h4.read_unread, h7.read_unread, h8.read_unread,
    View.ld_unit_zero (S := S256x256) hz2, View.ld_unit_zero (S := S2000x256) hz2, View.ld_unit_zero (S := S256x1) hz2]

/-- Last step, numerator scratch. -/
theorem num_last (c : Dev nD) (i : grid0.Coords) (a2 : Memref sig .tc .vmem S256x256 .f32) (h2 : a2.IsWhole) (a3 : Memref sig .tc .vmem S2000x256 .f32) (h3 : a3.IsWhole) (a4 : Memref sig .tc .vmem S2000x256 .f32) (h4 : a4.IsWhole) (a5 : Memref sig .tc .vmem S1x256x256 .f32) (h5 : a5.IsWhole) (a6 : Memref sig .tc .vmem S1x256x1 .f32) (h6 : a6.IsWhole) (a7 : Memref sig .tc .vmem S256x256 .f32) (h7 : a7.IsWhole) (a8 : Memref sig .tc .vmem S256x1 .f32) (h8 : a8.IsWhole) (hc0 : ¬cond0_0 i) (hc1 : cond0_1 i) (x0 : Vec F S256x256 .f32) (x1 : Vec F S2000x256 .f32) (x2 : Vec F S2000x256 .f32) (xs0 : Vec F S256x256 .f32) (xs1 : Vec F S256x1 .f32) :
    sout0_C_0 c i a2 h2 a3 h3 a4 h4 a5 h5 a6 h6 a7 h7 a8 h8 hc0 hc1 x0 x1 x2 xs0 xs1 = k0_pay7 x1 x2 x0 xs0 := by
  unfold sout0_C_0
  rw [View.read_writes_eq_canon _ _ _ (scover0_C_0 c i a2 h2 a3 h3 a4 h4 a5 h5 a6 h6 a7 h7 a8 h8 hc0 hc1 x0 x1 x2 xs0 xs1)]
  unfold kernelRun0_C
  dsimp only
  sl_unfold_words
  rw [View.canon_unit_zero hz2]
  simp only [View.readAt_eq_ld, h2.read_unread, h3.read_unread, h4.read_unread, h7.read_unread, h8.read_unread,
    View.ld_unit_zero (S := S256x256) hz2, View.ld_unit_zero (S := S2000x256) hz2, View.ld_unit_zero (S := S256x1) hz2]

/-- Last step, denominator scratch. -/
theorem den_last (c : Dev nD) (i : grid0.Coords) (a2 : Memref sig .tc .vmem S256x256 .f32) (h2 : a2.IsWhole) (a3 : Memref sig .tc .vmem S2000x256 .f32) (h3 : a3.IsWhole) (a4 : Memref sig .tc .vmem S2000x256 .f32) (h4 : a4.IsWhole) (a5 : Memref sig .tc .vmem S1x256x256 .f32) (h5 : a5.IsWhole) (a6 : Memref sig .tc .vmem S1x256x1 .f32) (h6 : a6.IsWhole) (a7 : Memref sig .tc .vmem S256x256 .f32) (h7 : a7.IsWhole) (a8 : Memref sig .tc .vmem S256x1 .f32) (h8 : a8.IsWhole) (hc0 : ¬cond0_0 i) (hc1 : cond0_1 i) (x0 : Vec F S256x256 .f32) (x1 : Vec F S2000x256 .f32) (x2 : Vec F S2000x256 .f32) (xs0 : Vec F S256x256 .f32) (xs1 : Vec F S256x1 .f32) :
    sout0_C_1 c i a2 h2 a3 h3 a4 h4 a5 h5 a6 h6 a7 h7 a8 h8 hc0 hc1 x0 x1 x2 xs0 xs1 = k0_pay6 x1 x0 xs1 := by
  unfold sout0_C_1
  rw [View.read_writes_eq_canon _ _ _ (scover0_C_1 c i a2 h2 a3 h3 a4 h4 a5 h5 a6 h6 a7 h7 a8 h8 hc0 hc1 x0 x1 x2 xs0 xs1)]
  unfold kernelRun0_C
  dsimp only
  sl_unfold_words
  rw [View.canon_unit_zero hz2]
  simp only [View.readAt_eq_ld, h2.read_unread, h3.read_unread, h4.read_unread, h7.read_unread, h8.read_unread,
    View.ld_unit_zero (S := S256x256) hz2, View.ld_unit_zero (S := S2000x256) hz2, View.ld_unit_zero (S := S256x1) hz2]

/-- Last step, the numerator's output block: the updated numerator with a unit axis in front. -/
theorem out_num (c : Dev nD) (i : grid0.Coords) (a2 : Memref sig .tc .vmem S256x256 .f32) (h2 : a2.IsWhole) (a3 : Memref sig .tc .vmem S2000x256 .f32) (h3 : a3.IsWhole) (a4 : Memref sig .tc .vmem S2000x256 .f32) (h4 : a4.IsWhole) (a5 : Memref sig .tc .vmem S1x256x256 .f32) (h5 : a5.IsWhole) (a6 : Memref sig .tc .vmem S1x256x1 .f32) (h6 : a6.IsWhole) (a7 : Memref sig .tc .vmem S256x256 .f32) (h7 : a7.IsWhole) (a8 : Memref sig .tc .vmem S256x1 .f32) (h8 : a8.IsWhole) (hc0 : ¬cond0_0 i) (hc1 : cond0_1 i) (x0 : Vec F S256x256 .f32) (x1 : Vec F S2000x256 .f32) (x2 : Vec F S2000x256 .f32) (xs0 : Vec F S256x256 .f32) (xs1 : Vec F S256x1 .f32) :
    out0_C_3 c i a2 h2 a3 h3 a4 h4 a5 h5 a6 h6 a7 h7 a8 h8 hc0 hc1 x0 x1 x2 xs0 xs1 = k0_pay1 (k0_pay7 x1 x2 x0 xs0) := by
  unfold out0_C_3
  rw [View.read_writes_eq_canon _ _ _ (cover0_C_3 c i a2 h2 a3 h3 a4 h4 a5 h5 a6 h6 a7 h7 a8 h8 hc0 hc1 x0 x1 x2 xs0 xs1)]
  unfold kernelRun0_C
  dsimp only
  sl_unfold_words
  rw [View.canon_unit_zero hz3, View.readCov_unit_zero (S := S256x256) _ hz2]
  simp only [View.readAt_eq_ld, h2.read_unread, h3.read_unread, h4.read_unread, h7.read_unread, h8.read_unread,
    View.ld_unit_zero (S := S256x256) hz2, View.ld_unit_zero (S := S2000x256) hz2, View.ld_unit_zero (S := S256x1) hz2]

/-- Last step, the denominator's output block: the updated denominator with a unit axis in front. -/
theorem out_den (c : Dev nD) (i : grid0.Coords) (a2 : Memref sig .tc .vmem S256x256 .f32) (h2 : a2.IsWhole) (a3 : Memref sig .tc .vmem S2000x256 .f32) (h3 : a3.IsWhole) (a4 : Memref sig .tc .vmem S2000x256 .f32) (h4 : a4.IsWhole) (a5 : Memref sig .tc .vmem S1x256x256 .f32) (h5 : a5.IsWhole) (a6 : Memref sig .tc .vmem S1x256x1 .f32) (h6 : a6.IsWhole) (a7 : Memref sig .tc .vmem S256x256 .f32) (h7 : a7.IsWhole) (a8 : Memref sig .tc .vmem S256x1 .f32) (h8 : a8.IsWhole) (hc0 : ¬cond0_0 i) (hc1 : cond0_1 i) (x0 : Vec F S256x256 .f32) (x1 : Vec F S2000x256 .f32) (x2 : Vec F S2000x256 .f32) (xs0 : Vec F S256x256 .f32) (xs1 : Vec F S256x1 .f32) :
    out0_C_4 c i a2 h2 a3 h3 a4 h4 a5 h5 a6 h6 a7 h7 a8 h8 hc0 hc1 x0 x1 x2 xs0 xs1 = k0_pay2 (k0_pay6 x1 x0 xs1) := by
  unfold out0_C_4
  rw [View.read_writes_eq_canon _ _ _ (cover0_C_4 c i a2 h2 a3 h3 a4 h4 a5 h5 a6 h6 a7 h7 a8 h8 hc0 hc1 x0 x1 x2 xs0 xs1)]
  unfold kernelRun0_C
  dsimp only
  sl_unfold_words
  rw [View.canon_unit_zero hz3, View.readCov_unit_zero (S := S256x1) _ hz2]
  simp only [View.readAt_eq_ld, h2.read_unread, h3.read_unread, h4.read_unread, h7.read_unread, h8.read_unread,
    View.ld_unit_zero (S := S256x256) hz2, View.ld_unit_zero (S := S2000x256) hz2, View.ld_unit_zero (S := S256x1) hz2]

end Cert.KernelIdeal.Pieces

end
-- ==== Proof.LibColumns.lean ====
/-
  Two layout operations read at an entry, for a column kept as an [a, 1] matrix — what a row reduction with
  kept dimensions passes through on its way back over the rows: a vector of a entries cast to one column, and
  one column laid along every column of an a × b matrix. Stated for any element type and any extents.
-/
import Idealize.ShloMosaic.Lib.Pipeline.Value
import Idealize.ShloMosaic.Lib.ValueIdx

namespace Cert.Lib.Columns

open Idealize.ShloMosaic Idealize.ShloMosaic.ValueIdx

variable {α : Type}

/-- An `[a]` array cast to `[a, 1]` reads, at `(i, u)`, the operand at `i`, whatever the unit coordinate `u`:
    both indices have the same row-major position, i · 1 + 0 = i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Columns
-- ==== Proof.Payload.lean ====
import proofs.«401784_j47631187312927_3_alg».proof.Proof.Gen.KernelIdeal.Skeleton
import proofs.«401784_j47631187312927_3_alg».proof.Proof.LibColumns
import Idealize.ShloMosaic.Lib.Pipeline.Value
import Idealize.ShloMosaic.Lib.ValueIdx
import Idealize.ShloMosaic.Lib.ValueLayout
import Idealize.ShloMosaic.PureOps.Ideal.Laws

/-!
# The body's arithmetic, entry by entry, over the extended reals

One grid point sees a tile of 2000 key rows `kb`, the matching 2000 value rows `vb`, and all 256 normalized
queries `q`. For query `b` and key row `j` of the tile the body forms the weight

  `wgt kb q b j = exp (∑ₖ q[b,k] · kb[j,k] / max (sqrt (∑ₖ' kb[j,k']²)) ε)`

(the changes of float format are the identity on extended reals, the matrix product into a zero accumulator is the
plain sum over the contracted axis, the lane reduction is the sum along the row). It then adds `∑ⱼ wgt b j` to
the running denominator column and `∑ⱼ wgt b j · vb[j,h]` to the running numerator; the resets store zeros, and
the last point's copies to the output blocks only add a leading unit axis.
-/

noncomputable section

namespace Cert.KernelIdeal.Payload

open Cert.KernelIdeal Cert.KernelIdeal.Gen Idealize.ShloMosaic Idealize.ShloMosaic.ValueIdx

/-- The clamp of a key row's norm: the f32 word `0x322BCC77` (about 1e-8). -/
abbrev epsW : EReal := Ideal.ofBits .f32 0x322BCC77#32

/-- A key row divided by its clamped Euclidean norm, at column `k`. -/
def unitRow (kb : Vec Ideal S2000x256 .f32) (j : Fin 2000) (k : Fin 256) : EReal :=
  Ideal.div (kb (ix2 j k)) (max (Ideal.sqrt (∑ k' : Fin 256, kb (ix2 j k') * kb (ix2 j k'))) epsW)

/-- The unnormalized weight of key row `j` of the tile for query `b`. -/
def wgt (kb : Vec Ideal S2000x256 .f32) (q : Vec Ideal S256x256 .f32) (b : Fin 256) (j : Fin 2000) : EReal :=
  Ideal.exp (∑ k : Fin 256, q (ix2 b k) * unitRow kb j k)

/-! ## Auxiliary readings: a row sum, the two matrix products, the normalized key rows -/

/-- A sum along the rows of an `m × n` matrix, at row `j`: the sum of that row's entries. -/
theorem rowSum_apply {m n : ℕ} {φ : FTy} (src : FVec Ideal ⟨2, ![m, n]⟩ φ) (acc : BitVec φ.bits)
    (h : (⟨2, ![m, n]⟩ : Shape).Reduces [1] ⟨1, ![m]⟩) (hφ : FKind.Formats φ) (hacc : acc = FKind.add.neutral φ hφ) (j : Fin m) :
    multiReduction (F := Ideal) .add [1] ⟨1, ![m]⟩ src acc h hφ hacc (ix1 j) = ∑ k : Fin n, src (ix2 j k) := by
  refine (Ideal.multiReduction_add_single src acc h hφ hacc (ix1 j)).trans ?_
  refine Finset.sum_congr rfl fun k _ => congrArg src ?_
  funext a
  refine Fin.ext ?_
  match a with
  | ⟨0, _⟩ => rfl
  | ⟨1, _⟩ => rfl

/-- On the left operand's row axis the operand index of `dot_S256x256_S256x2000_S256x2000_1_0_0_1_n_n` is the output's row. -/
theorem lhs_qk_0 (i : S256x2000.Idx) (c : dot_S256x256_S256x2000_S256x2000_1_0_0_1_n_n.contr.Idx) :
    (dot_S256x256_S256x2000_S256x2000_1_0_0_1_n_n.lhsIdx i c 0).val = (i 0).val := by
  unfold DotDims.lhsIdx
  rw [dif_neg (show ¬(0 : Fin S256x256.rank) ∈ dot_S256x256_S256x2000_S256x2000_1_0_0_1_n_n.lhsBatch by decide), dif_pos (show (0 : Fin S256x256.rank) ∈ dot_S256x256_S256x2000_S256x2000_1_0_0_1_n_n.lhsNonContracting by decide)]
  rfl
/-- On the left operand's column axis it is the contraction coordinate. -/
theorem lhs_qk_1 (i : S256x2000.Idx) (c : dot_S256x256_S256x2000_S256x2000_1_0_0_1_n_n.contr.Idx) :
    (dot_S256x256_S256x2000_S256x2000_1_0_0_1_n_n.lhsIdx i c 1).val = (c ⟨0, by decide⟩).val :=
  dot_S256x256_S256x2000_S256x2000_1_0_0_1_n_n.lhsIdx_val_of_single rfl i c
/-- On the right operand's row axis it is the contraction coordinate. -/
theorem rhs_qk_0 (i : S256x2000.Idx) (c : dot_S256x256_S256x2000_S256x2000_1_0_0_1_n_n.contr.Idx) :
    (dot_S256x256_S256x2000_S256x2000_1_0_0_1_n_n.rhsIdx i c 0).val = (c ⟨0, by decide⟩).val :=
  dot_S256x256_S256x2000_S256x2000_1_0_0_1_n_n.rhsIdx_val_of_single rfl i c
/-- On the right operand's column axis it is the output's column. -/
theorem rhs_qk_1 (i : S256x2000.Idx) (c : dot_S256x256_S256x2000_S256x2000_1_0_0_1_n_n.contr.Idx) :
    (dot_S256x256_S256x2000_S256x2000_1_0_0_1_n_n.rhsIdx i c 1).val = (i 1).val := by
  unfold DotDims.rhsIdx
  rw [dif_neg (show ¬(1 : Fin S256x2000.rank) ∈ dot_S256x256_S256x2000_S256x2000_1_0_0_1_n_n.rhsBatch by decide), dif_pos (show (1 : Fin S256x2000.rank) ∈ dot_S256x256_S256x2000_S256x2000_1_0_0_1_n_n.rhsNonContracting by decide)]
  rfl

/-- The product of a `256 × 256` by a `256 × 2000` matrix into the zero accumulator, at `(r, c)`: the sum over the
    contracted coordinate of the row's entries times the column's. -/
theorem matmul_qk_apply {φ₁ φ₂ : FTy} (x : FVec Ideal S256x256 φ₁) (y : FVec Ideal S256x2000 φ₂) (r : Fin 256) (c : Fin 2000) :
    matmul dot_S256x256_S256x2000_S256x2000_1_0_0_1_n_n none x y (constant S256x2000 .f32 0x00000000#32) (ix2 r c)
      = ∑ k : Fin 256, x (ix2 r k) * y (ix2 k c) := by
  simp only [matmul]
  rw [Ideal.matmul_constant_zero_apply, ← Equiv.sum_comp (ValueIdx.contrEquiv1 dot_S256x256_S256x2000_S256x2000_1_0_0_1_n_n 256 rfl rfl).symm]
  refine Finset.sum_congr rfl fun k _ => ?_
  have hk := ValueIdx.contrEquiv1_symm_val dot_S256x256_S256x2000_S256x2000_1_0_0_1_n_n 256 rfl rfl k
  have el : dot_S256x256_S256x2000_S256x2000_1_0_0_1_n_n.lhsIdx (ix2 r c) ((ValueIdx.contrEquiv1 dot_S256x256_S256x2000_S256x2000_1_0_0_1_n_n 256 rfl rfl).symm k) = ix2 r k := funext fun a => Fin.ext (by
    match a with
    | ⟨0, _⟩ => exact lhs_qk_0 _ _
    | ⟨1, _⟩ => exact (lhs_qk_1 _ _).trans hk)
  have er : dot_S256x256_S256x2000_S256x2000_1_0_0_1_n_n.rhsIdx (ix2 r c) ((ValueIdx.contrEquiv1 dot_S256x256_S256x2000_S256x2000_1_0_0_1_n_n 256 rfl rfl).symm k) = ix2 k c := funext fun a => Fin.ext (by
    match a with
    | ⟨0, _⟩ => exact (rhs_qk_0 _ _).trans hk
    | ⟨1, _⟩ => exact rhs_qk_1 _ _)
  rw [el, er]

/-- On the left operand's row axis the operand index of `dot_S256x2000_S2000x256_S256x256_1_0_0_1_n_n` is the output's row. -/
theorem lhs_pv_0 (i : S256x256.Idx) (c : dot_S256x2000_S2000x256_S256x256_1_0_0_1_n_n.contr.Idx) :
    (dot_S256x2000_S2000x256_S256x256_1_0_0_1_n_n.lhsIdx i c 0).val = (i 0).val := by
  unfold DotDims.lhsIdx
  rw [dif_neg (show ¬(0 : Fin S256x2000.rank) ∈ dot_S256x2000_S2000x256_S256x256_1_0_0_1_n_n.lhsBatch by decide), dif_pos (show (0 : Fin S256x2000.rank) ∈ dot_S256x2000_S2000x256_S256x256_1_0_0_1_n_n.lhsNonContracting by decide)]
  rfl
/-- On the left operand's column axis it is the contraction coordinate. -/
theorem lhs_pv_1 (i : S256x256.Idx) (c : dot_S256x2000_S2000x256_S256x256_1_0_0_1_n_n.contr.Idx) :
    (dot_S256x2000_S2000x256_S256x256_1_0_0_1_n_n.lhsIdx i c 1).val = (c ⟨0, by decide⟩).val :=
  dot_S256x2000_S2000x256_S256x256_1_0_0_1_n_n.lhsIdx_val_of_single rfl i c
/-- On the right operand's row axis it is the contraction coordinate. -/
theorem rhs_pv_0 (i : S256x256.Idx) (c : dot_S256x2000_S2000x256_S256x256_1_0_0_1_n_n.contr.Idx) :
    (dot_S256x2000_S2000x256_S256x256_1_0_0_1_n_n.rhsIdx i c 0).val = (c ⟨0, by decide⟩).val :=
  dot_S256x2000_S2000x256_S256x256_1_0_0_1_n_n.rhsIdx_val_of_single rfl i c
/-- On the right operand's column axis it is the output's column. -/
theorem rhs_pv_1 (i : S256x256.Idx) (c : dot_S256x2000_S2000x256_S256x256_1_0_0_1_n_n.contr.Idx) :
    (dot_S256x2000_S2000x256_S256x256_1_0_0_1_n_n.rhsIdx i c 1).val = (i 1).val := by
  unfold DotDims.rhsIdx
  rw [dif_neg (show ¬(1 : Fin S2000x256.rank) ∈ dot_S256x2000_S2000x256_S256x256_1_0_0_1_n_n.rhsBatch by decide), dif_pos (show (1 : Fin S2000x256.rank) ∈ dot_S256x2000_S2000x256_S256x256_1_0_0_1_n_n.rhsNonContracting by decide)]
  rfl

/-- The product of a `256 × 2000` by a `2000 × 256` matrix into the zero accumulator, at `(r, c)`: the sum over the
    contracted coordinate of the row's entries times the column's. -/
theorem matmul_pv_apply {φ₁ φ₂ : FTy} (x : FVec Ideal S256x2000 φ₁) (y : FVec Ideal S2000x256 φ₂) (r : Fin 256) (c : Fin 256) :
    matmul dot_S256x2000_S2000x256_S256x256_1_0_0_1_n_n none x y (constant S256x256 .f32 0x00000000#32) (ix2 r c)
      = ∑ k : Fin 2000, x (ix2 r k) * y (ix2 k c) := by
  simp only [matmul]
  rw [Ideal.matmul_constant_zero_apply, ← Equiv.sum_comp (ValueIdx.contrEquiv1 dot_S256x2000_S2000x256_S256x256_1_0_0_1_n_n 2000 rfl rfl).symm]
  refine Finset.sum_congr rfl fun k _ => ?_
  have hk := ValueIdx.contrEquiv1_symm_val dot_S256x2000_S2000x256_S256x256_1_0_0_1_n_n 2000 rfl rfl k
  have el : dot_S256x2000_S2000x256_S256x256_1_0_0_1_n_n.lhsIdx (ix2 r c) ((ValueIdx.contrEquiv1 dot_S256x2000_S2000x256_S256x256_1_0_0_1_n_n 2000 rfl rfl).symm k) = ix2 r k := funext fun a => Fin.ext (by
    match a with
    | ⟨0, _⟩ => exact lhs_pv_0 _ _
    | ⟨1, _⟩ => exact (lhs_pv_1 _ _).trans hk)
  have er : dot_S256x2000_S2000x256_S256x256_1_0_0_1_n_n.rhsIdx (ix2 r c) ((ValueIdx.contrEquiv1 dot_S256x2000_S2000x256_S256x256_1_0_0_1_n_n 2000 rfl rfl).symm k) = ix2 k c := funext fun a => Fin.ext (by
    match a with
    | ⟨0, _⟩ => exact (rhs_pv_0 _ _).trans hk
    | ⟨1, _⟩ => exact rhs_pv_1 _ _)
  rw [el, er]

/-- The tile's key rows, each entry divided by its row's clamped norm: the body's quotient at `(j, k)`. -/
theorem unitRow_apply (kb : Vec Ideal S2000x256 .f32) (j : Fin 2000) (k : Fin 256) :
    divf (F := Ideal) (φ := .f32) kb (broadcastTo S2000x256 (maximumf (sqrt (shapeCast S2000x1
        (multiReduction (F := Ideal) (φ := .f32) .add [1] S2000 (mulf kb kb) 0x00000000#32 reduces_S2000x256_S2000 (.inl rfl) rfl)
        shapeCasts_S2000_S2000x1)) (broadcast S2000x1 (Scalar.ofBits .f32 0x322BCC77#32)))
      broadcasts_S2000x1_S2000x256) (ix2 j k) = unitRow kb j k := by
  unfold unitRow
  rw [divf_apply, Cert.Lib.Columns.broadcastTo_a1_ab_apply, maximumf_apply, broadcast_apply]
  refine congrArg (fun t => Ideal.div (kb (ix2 j k)) (max (Ideal.sqrt t) epsW)) ?_
  rw [Cert.Lib.Columns.shapeCast_a_a1_apply]
  exact rowSum_apply (mulf kb kb) _ reduces_S2000x256_S2000 _ _ j

/-! ## The payloads -/

/-- The exponentiated similarity block at `(b, j)` is the weight. -/
theorem pay5_apply (kb : Vec Ideal S2000x256 .f32) (q : Vec Ideal S256x256 .f32) (b : Fin 256) (j : Fin 2000) :
    k0_pay5 (F := Ideal) kb q (ix2 b j) = wgt kb q b j := by
  unfold k0_pay5 wgt
  refine congrArg Ideal.exp ?_
  refine (matmul_qk_apply _ _ b j).trans ?_
  refine Finset.sum_congr rfl fun k _ => ?_
  rw [truncf_apply, shapeCast_self, transpose_ix2_apply, truncf_apply, unitRow_apply]

/-- The denominator column after the point: what it held plus the tile's weights summed. -/
theorem pay6_apply (kb : Vec Ideal S2000x256 .f32) (q : Vec Ideal S256x256 .f32) (l : Vec Ideal S256x1 .f32)
    (b : Fin 256) (u : Fin 1) :
    k0_pay6 (F := Ideal) kb q l (ix2 b u) = l (ix2 b u) + ∑ j : Fin 2000, wgt kb q b j := by
  unfold k0_pay6
  rw [shapeCast_self, addf_apply, Cert.Lib.Columns.shapeCast_a_a1_apply]
  refine congrArg (l (ix2 b u) + ·) ?_
  refine (rowSum_apply (k0_pay5 kb q) _ reduces_S256x2000_S256 _ _ b).trans ?_
  exact Finset.sum_congr rfl fun j _ => pay5_apply kb q b j

/-- The numerator after the point: what it held plus the tile's weighted value rows. -/
theorem pay7_apply (kb vb : Vec Ideal S2000x256 .f32) (q acc : Vec Ideal S256x256 .f32) (b h : Fin 256) :
    k0_pay7 (F := Ideal) kb vb q acc (ix2 b h) = acc (ix2 b h) + ∑ j : Fin 2000, wgt kb q b j * vb (ix2 j h) := by
  unfold k0_pay7
  rw [shapeCast_self, addf_apply]
  refine congrArg (acc (ix2 b h) + ·) ?_
  refine (matmul_pv_apply _ _ b h).trans ?_
  refine Finset.sum_congr rfl fun j _ => ?_
  rw [truncf_apply, truncf_apply, pay5_apply]

/-- The numerator's reset stores zeros. -/
theorem pay3_apply (i : S256x256.Idx) : k0_pay3 (F := Ideal) i = 0 := by
  unfold k0_pay3
  show shapeCast S256x256 (broadcast S256x256 (Scalar.ofBits (F := Ideal) .f32 0x00000000#32)) shapeCasts_S256x256_S256x256 i = 0
  rw [shapeCast_self]
  exact Ideal.ofBits_zero_f32

/-- The denominator's reset stores zeros. -/
theorem pay4_apply (i : S256x1.Idx) : k0_pay4 (F := Ideal) i = 0 := by
  unfold k0_pay4
  show shapeCast S256x1 (broadcast S256x1 (Scalar.ofBits (F := Ideal) .f32 0x00000000#32)) shapeCasts_S256x1_S256x1 i = 0
  rw [shapeCast_self]
  exact Ideal.ofBits_zero_f32

/-- The numerator copied to its output block: a leading unit axis added. -/
theorem pay1_apply (v : Vec Ideal S256x256 .f32) (u : Fin 1) (b h : Fin 256) :
    k0_pay1 (F := Ideal) v (ix3 u b h) = v (ix2 b h) := by
  unfold k0_pay1
  exact shapeCast_ab_1ab_apply v shapeCasts_S256x256_S1x256x256 u b h

/-- The denominator column copied to its output block: a leading unit axis added. -/
theorem pay2_apply (v : Vec Ideal S256x1 .f32) (u : Fin 1) (b : Fin 256) (w : Fin 1) :
    k0_pay2 (F := Ideal) v (ix3 u b w) = v (ix2 b w) := by
  unfold k0_pay2
  exact shapeCast_ab_1ab_apply v shapeCasts_S256x1_S1x256x1 u b w

end Cert.KernelIdeal.Payload

end
-- ==== Proof.Softmax.lean ====
import Idealize.ShloMosaic.PureOps.Ideal
import Idealize.ShloMosaic.PureOps.Ideal.Laws
import Mathlib.Analysis.SpecialFunctions.Exp
import Mathlib.Analysis.SpecialFunctions.Sqrt
import Mathlib.Algebra.BigOperators.Fin
import Mathlib.Data.EReal.Operations

/-!
# The memory read's algebra, over abstract finite index sets

Nothing here mentions a program. Three groups of facts about extended reals:

* regrouping a sum over 100000 rows as 2 halves × 25 tiles × 2000 rows (`sum_tiles`, `sum_range_tiles`);
* finiteness: a row divided by `max (sqrt (∑ r²)) ε` with `ε > 0` is real, a dot product of reals is real, a
  running maximum of reals over a nonempty index set is real, the exponential of a real is a positive real;
* the softmax law: for real scores `s`, real values `v` and ANY real shift `M`,
  `∑ₗ (exp (sₗ - M) / ∑ₗ' exp (sₗ' - M)) · vₗ = (∑ₗ exp sₗ · vₗ) / (∑ₗ exp sₗ)`.
-/

noncomputable section

namespace Cert.Softmax

open Idealize.ShloMosaic

/-- An extended real that is a real number. -/
def IsReal (x : EReal) : Prop := ∃ r : ℝ, x = (r : EReal)

/-- A finite sum of real numbers, each read as an extended real, is the real sum read as an extended real. -/
theorem coe_sum {ι : Type} (t : Finset ι) (g : ι → ℝ) :
    ∑ i ∈ t, ((g i : ℝ) : EReal) = ((∑ i ∈ t, g i : ℝ) : EReal) := by
  classical
  refine Finset.induction_on t ?_ ?_
  · simp
  · intro a t ha ih
    rw [Finset.sum_insert ha, Finset.sum_insert ha, ih, EReal.coe_add]

/-- Reading reals as extended reals commutes with the binary maximum. -/
theorem coe_max (a b : ℝ) : ((max a b : ℝ) : EReal) = max (a : EReal) (b : EReal) :=
  EReal.coe_strictMono.monotone.map_max

/-- A sum over `a · b` indices is a double sum: index `p · b + q` with `p < a`, `q < b`. -/
theorem sum_fin_mul {M : Type} [AddCommMonoid M] (a b : ℕ) (g : ℕ → M) :
    ∑ p : Fin a, ∑ q : Fin b, g (p.val * b + q.val) = ∑ l : Fin (a * b), g l.val := by
  rw [← Fintype.sum_prod_type' (f := fun (p : Fin a) (q : Fin b) => g (p.val * b + q.val))]
  refine Fintype.sum_equiv finProdFinEquiv _ _ (fun x => ?_)
  simp [finProdFinEquiv, Nat.mul_comm, Nat.add_comm]

/-- 100000 rows are 2 halves of 25 tiles of 2000 rows: row `(p·25 + i)·2000 + j`. -/
theorem sum_tiles {M : Type} [AddCommMonoid M] (f : ℕ → M) :
    ∑ p : Fin 2, ∑ i : Fin 25, ∑ j : Fin 2000, f ((p.val * 25 + i.val) * 2000 + j.val) = ∑ l : Fin 100000, f l.val := by
  -- first the 2 × 25 tiles become 50 tiles, then the 50 × 2000 rows become 100000 rows
  exact (sum_fin_mul 2 25 (fun m => ∑ j : Fin 2000, f (m * 2000 + j.val))).trans (sum_fin_mul 50 2000 f)

/-- The clamp's f32 word `0x322BCC77` (`9.99999993922529e-09`) is a positive real. -/
theorem eps_real : ∃ e : ℝ, 0 < e ∧ Ideal.ofBits .f32 0x322BCC77#32 = (e : EReal) := by
  -- sign 0, exponent field 100, fraction field 2870391: the value is (2^23 + 2870391) · 2^(100 - 127 - 23)
  refine ⟨11258999 * (2 ^ 50)⁻¹, by positivity, ?_⟩
  simp [Ideal.ofBits, Ideal.ieee]

/-- The f32 word of `-inf` is `⊥`. -/
theorem neg_inf_word : Ideal.ofBits .f32 0xFF800000#32 = (⊥ : EReal) := by
  simp [Ideal.ofBits, Ideal.ieee]

/-- A real row divided by its clamped Euclidean norm is real: `r d / max (sqrt (∑ rₖ²)) ε`, `ε > 0`. -/
theorem normalize_real {n : ℕ} (x : Fin n → EReal) (hx : ∀ k, IsReal (x k)) (eps : EReal) (heps : ∃ e : ℝ, 0 < e ∧ eps = (e : EReal))
    (d : Fin n) : IsReal (Ideal.div (x d) (max (Ideal.sqrt (∑ k, x k * x k)) eps)) := by
  choose ρ hρ using hx
  obtain ⟨e, he, rfl⟩ := heps
  -- the sum of squares is a nonnegative real
  have hsum : ∑ k, x k * x k = ((∑ k, ρ k * ρ k : ℝ) : EReal) := by
    rw [← coe_sum]
    exact Finset.sum_congr rfl (fun k _ => by rw [hρ k, EReal.coe_mul])
  have hnn : ¬ (∑ k, ρ k * ρ k) < 0 := not_lt.mpr (Finset.sum_nonneg (fun k _ => mul_self_nonneg _))
  -- so its square root is real, and the clamped norm is a real that is at least ε > 0
  have hpos : 0 < max (Real.sqrt (∑ k, ρ k * ρ k)) e := lt_max_of_lt_right he
  rw [hsum, Ideal.sqrt_coe, if_neg hnn, ← coe_max, hρ d, Ideal.div_coe hpos.ne', ← EReal.coe_mul]
  exact ⟨_, rfl⟩

/-- A dot product of real rows is real. -/
theorem dot_real {n : ℕ} (a b : Fin n → EReal) (ha : ∀ k, IsReal (a k)) (hb : ∀ k, IsReal (b k)) :
    IsReal (∑ k, a k * b k) := by
  choose α hα using ha
  choose β hβ using hb
  refine ⟨∑ k, α k * β k, ?_⟩
  rw [← coe_sum]
  exact Finset.sum_congr rfl (fun k _ => by rw [hα k, hβ k, EReal.coe_mul])

/-- The running maximum from `⊥` of real numbers over a nonempty index set is real. -/
theorem foldmax_real {n : ℕ} (hn : 0 < n) (s : Fin n → EReal) (hs : ∀ l, IsReal (s l)) :
    IsReal ((Finset.univ : Finset (Fin n)).fold max (⊥ : EReal) s) := by
  choose σ hσ using hs
  -- over any finite index set the running maximum is real as soon as the set is nonempty
  have key : ∀ t : Finset (Fin n), t = ∅ ∨ IsReal (t.fold max (⊥ : EReal) s) := by
    intro t
    refine Finset.induction_on t (Or.inl rfl) ?_
    intro a t ha ih
    right
    rw [Finset.fold_insert ha, hσ a]
    rcases ih with rfl | ⟨b, hb⟩
    · rw [Finset.fold_empty, max_eq_left bot_le]
      exact ⟨_, rfl⟩
    · rw [hb, ← coe_max]
      exact ⟨_, rfl⟩
  rcases key Finset.univ with h | h
  · exact absurd h (Finset.univ_nonempty_iff.mpr ⟨⟨0, hn⟩⟩).ne_empty
  · exact h

/-- THE SOFTMAX LAW. For real scores, real values, any real shift `M` and a nonempty index set, the
    shifted-and-normalized weights applied to `v` are the unnormalized weighted sum over the unnormalized total. -/
theorem softmax_agree {n : ℕ} (hn : 0 < n) (s v : Fin n → EReal) (M : EReal)
    (hs : ∀ l, IsReal (s l)) (hv : ∀ l, IsReal (v l)) (hM : IsReal M) :
    ∑ l, Ideal.div (Ideal.exp (s l - M)) (∑ l', Ideal.exp (s l' - M)) * v l
      = Ideal.div (∑ l, Ideal.exp (s l) * v l) (∑ l, Ideal.exp (s l)) := by
  choose σ hσ using hs
  choose ν hν using hv
  obtain ⟨μ, rfl⟩ := hM
  haveI : Nonempty (Fin n) := ⟨⟨0, hn⟩⟩
  -- every exponential, and every sum of exponentials, is a positive real
  have hexp : ∀ l, Ideal.exp (s l - (μ : EReal)) = ((Real.exp (σ l - μ) : ℝ) : EReal) := fun l => by
    rw [hσ l, ← EReal.coe_sub, Ideal.exp_coe]
  have hexp0 : ∀ l, Ideal.exp (s l) = ((Real.exp (σ l) : ℝ) : EReal) := fun l => by
    rw [hσ l, Ideal.exp_coe]
  have hZ : ∑ l', Ideal.exp (s l' - (μ : EReal)) = ((∑ l', Real.exp (σ l' - μ) : ℝ) : EReal) := by
    rw [← coe_sum]
    exact Finset.sum_congr rfl (fun l _ => hexp l)
  have hZ0 : ∑ l, Ideal.exp (s l) = ((∑ l, Real.exp (σ l) : ℝ) : EReal) := by
    rw [← coe_sum]
    exact Finset.sum_congr rfl (fun l _ => hexp0 l)
  have hN : ∑ l, Ideal.exp (s l) * v l = ((∑ l, Real.exp (σ l) * ν l : ℝ) : EReal) := by
    rw [← coe_sum]
    exact Finset.sum_congr rfl (fun l _ => by rw [hexp0 l, hν l, EReal.coe_mul])
  have hZpos : 0 < ∑ l', Real.exp (σ l' - μ) :=
    Finset.sum_pos (fun l _ => Real.exp_pos _) Finset.univ_nonempty
  have hZ0pos : 0 < ∑ l, Real.exp (σ l) :=
    Finset.sum_pos (fun l _ => Real.exp_pos _) Finset.univ_nonempty
  have hL : ∀ l, Ideal.div (Ideal.exp (s l - (μ : EReal))) (∑ l', Ideal.exp (s l' - (μ : EReal))) * v l
      = ((Real.exp (σ l - μ) * (1 / ∑ l', Real.exp (σ l' - μ)) * ν l : ℝ) : EReal) := fun l => by
    rw [hZ, hexp l, Ideal.div_coe hZpos.ne', hν l, ← EReal.coe_mul, ← EReal.coe_mul]
  rw [Finset.sum_congr rfl (fun l _ => hL l), coe_sum, hZ0, hN, Ideal.div_coe hZ0pos.ne', ← EReal.coe_mul]
  congr 1
  -- the real identity: the common factor `exp (-μ)` cancels between numerator and denominator
  have hμ : Real.exp μ ≠ 0 := (Real.exp_pos μ).ne'
  have hS : ∑ l', Real.exp (σ l' - μ) = (∑ l', Real.exp (σ l')) / Real.exp μ := by
    rw [Finset.sum_div]
    exact Finset.sum_congr rfl (fun l _ => Real.exp_sub _ _)
  rw [hS, Finset.sum_mul]
  refine Finset.sum_congr rfl (fun l _ => ?_)
  rw [Real.exp_sub]
  have hne := hZ0pos.ne'
  field_simp

end Cert.Softmax

end
-- ==== Proof.Spec.lean ====
import proofs.«401784_j47631187312927_3_alg».proof.Proof.Softmax
import Idealize.ShloMosaic.Lib.ValueIdx

/-!
# The memory read, as one function of the queries, the keys and the values

For normalized queries `q` (256 × 256), keys `K` and values `V` (100000 × 256 each), over the extended reals:

* `unitKey K l k = K[l,k] / max (sqrt (∑ₖ' K[l,k']²)) ε`: key row `l` divided by its clamped Euclidean norm;
* `sim q K b l = ∑ₖ q[b,k] · unitKey K l k`: the cosine similarity of query `b` and key `l`;
* `weight q K b l = exp (sim q K b l)`;
* `mem q K V [b,h] = (∑ₗ weight b l · V[l,h]) / (∑ₗ weight b l)`.

The kernel computes `mem` in this form (its sums cut into tiles); the reference computes the softmax of `sim`
along `l` and applies it to `V`, which for finite inputs is the same number (`Cert.Softmax.softmax_agree`).
-/

noncomputable section

namespace Cert.Spec

open Idealize.ShloMosaic Idealize.ShloMosaic.ValueIdx Cert.Softmax

abbrev SQ : Shape := ⟨2, ![256, 256]⟩
abbrev SK : Shape := ⟨2, ![100000, 256]⟩

/-- The clamp of a norm: the f32 word `0x322BCC77` (about 1e-8). -/
abbrev epsW : EReal := Ideal.ofBits .f32 0x322BCC77#32

/-- Key row `l` divided by its clamped Euclidean norm, at column `k`. -/
def unitKey (K : SK.Idx → EReal) (l : Fin 100000) (k : Fin 256) : EReal :=
  Ideal.div (K (ix2 l k)) (max (Ideal.sqrt (∑ k' : Fin 256, K (ix2 l k') * K (ix2 l k'))) epsW)

/-- The similarity of query `b` and key `l`. -/
def sim (q : SQ.Idx → EReal) (K : SK.Idx → EReal) (b : Fin 256) (l : Fin 100000) : EReal :=
  ∑ k : Fin 256, q (ix2 b k) * unitKey K l k

/-- The unnormalized weight of key `l` for query `b`. -/
def weight (q : SQ.Idx → EReal) (K : SK.Idx → EReal) (b : Fin 256) (l : Fin 100000) : EReal :=
  Ideal.exp (sim q K b l)

/-- The weighted sum of value column `h`. -/
def numer (q : SQ.Idx → EReal) (K V : SK.Idx → EReal) (b h : Fin 256) : EReal :=
  ∑ l : Fin 100000, weight q K b l * V (ix2 l h)

/-- The total weight. -/
def denom (q : SQ.Idx → EReal) (K : SK.Idx → EReal) (b : Fin 256) : EReal :=
  ∑ l : Fin 100000, weight q K b l

/-- The memory read. -/
def mem (q : SQ.Idx → EReal) (K V : SK.Idx → EReal) : SQ.Idx → EReal :=
  fun i => Ideal.div (numer q K V (i 0) (i 1)) (denom q K (i 0))

theorem mem_apply (q : SQ.Idx → EReal) (K V : SK.Idx → EReal) (b h : Fin 256) :
    mem q K V (ix2 b h) = Ideal.div (numer q K V b h) (denom q K b) := rfl

/-- With real keys every unit key entry is real. -/
theorem unitKey_real (K : SK.Idx → EReal) (hK : ∀ i, IsReal (K i)) (l : Fin 100000) (k : Fin 256) :
    IsReal (unitKey K l k) :=
  normalize_real (fun k => K (ix2 l k)) (fun k => hK _) epsW eps_real k

/-- With real queries and keys every similarity is real. -/
theorem sim_real (q : SQ.Idx → EReal) (K : SK.Idx → EReal) (hq : ∀ i, IsReal (q i)) (hK : ∀ i, IsReal (K i))
    (b : Fin 256) (l : Fin 100000) : IsReal (sim q K b l) :=
  dot_real _ _ (fun k => hq _) (fun k => unitKey_real K hK l k)

/-- THE REFERENCE'S FORM IS THE KERNEL'S. The softmax of the similarities along the keys, shifted by ANY real `M b`
    (the reference shifts by the row maximum), applied to the values, is `mem` — for real queries, keys, values. -/
theorem softmax_form (q : SQ.Idx → EReal) (K V : SK.Idx → EReal) (hq : ∀ i, IsReal (q i)) (hK : ∀ i, IsReal (K i))
    (hV : ∀ i, IsReal (V i)) (M : EReal) (hM : IsReal M) (b h : Fin 256) :
    ∑ l : Fin 100000, Ideal.div (Ideal.exp (sim q K b l - M)) (∑ l' : Fin 100000, Ideal.exp (sim q K b l' - M)) * V (ix2 l h)
      = mem q K V (ix2 b h) :=
  softmax_agree (by decide) (fun l => sim q K b l) (fun l => V (ix2 l h)) M (fun l => sim_real q K hq hK b l)
    (fun l => hV _) hM

end Cert.Spec

end
-- ==== Proof.Tiles.lean ====
import proofs.«401784_j47631187312927_3_alg».proof.Proof.Spec

/-!
# The memory read's two sums, term by term over the natural numbers

`numTerm q K V b h l` and `denTerm q K b l` are the `l`-th terms of `Cert.Spec.numer` and `Cert.Spec.denom`, extended
by zero past the last key so that a tile's rows can be named by arithmetic on naturals, `(25·p + s)·2000 + j`,
without carrying bounds.
-/

noncomputable section

namespace Cert.Spec

open Idealize.ShloMosaic Idealize.ShloMosaic.ValueIdx

/-- Term `l` of the numerator's sum (zero from `l = 100000` on). -/
def numTerm (q : SQ.Idx → EReal) (K V : SK.Idx → EReal) (b h : Fin 256) (l : ℕ) : EReal :=
  if hl : l < 100000 then weight q K b ⟨l, hl⟩ * V (ix2 ⟨l, hl⟩ h) else 0

/-- Term `l` of the denominator's sum (zero from `l = 100000` on). -/
def denTerm (q : SQ.Idx → EReal) (K : SK.Idx → EReal) (b : Fin 256) (l : ℕ) : EReal :=
  if hl : l < 100000 then weight q K b ⟨l, hl⟩ else 0

theorem numer_eq_sum (q : SQ.Idx → EReal) (K V : SK.Idx → EReal) (b h : Fin 256) :
    numer q K V b h = ∑ l : Fin 100000, numTerm q K V b h l.val :=
  Finset.sum_congr rfl fun l _ => by unfold numTerm; rw [dif_pos l.isLt]

theorem denom_eq_sum (q : SQ.Idx → EReal) (K : SK.Idx → EReal) (b : Fin 256) :
    denom q K b = ∑ l : Fin 100000, denTerm q K b l.val :=
  Finset.sum_congr rfl fun l _ => by unfold denTerm; rw [dif_pos l.isLt]

end Cert.Spec

end
-- ==== Proof.KValue.lean ====
import proofs.«401784_j47631187312927_3_alg».proof.Proof.Pieces
import proofs.«401784_j47631187312927_3_alg».proof.Proof.Payload
import proofs.«401784_j47631187312927_3_alg».proof.Proof.Spec
import proofs.«401784_j47631187312927_3_alg».proof.Proof.Tiles
import Idealize.ShloMosaic.Lib.Pipeline.Value
import Idealize.ShloMosaic.Lib.ValueIdx
import Idealize.ShloMosaic.Lib.Tactic

/-!
# The region's two output arrays, entry by entry

The grid is 2 halves × 25 steps; point `t = 25·p + i` sees key and value rows `2000·t … 2000·t + 1999` and all
the normalized queries. Within a half the numerator scratch is reset at step 0 and grows by the tile's
`∑ⱼ weight[b, 2000·t + j] · V[2000·t + j, h]` at every step, the denominator scratch by `∑ⱼ weight[b, 2000·t + j]`;
after step 24 both are copied to block `p` of the outputs. So output 3 at `(p, b, h)` is the sum over the half's
25 tiles of the numerator terms, output 4 at `(p, b, 0)` the same for the denominator — as sums over
`Finset.range 25` of per-point addends.
-/

set_option maxRecDepth 16384

noncomputable section

open Idealize.ShloMosaic Idealize.ShloMosaic.TcCoe Idealize.SL.Sem
open Idealize.ShloMosaic.Pipeline (Dat)

namespace Cert.KernelIdeal.KValue

open Cert.KernelIdeal Cert.KernelIdeal.Gen Cert.KernelIdeal.Pieces Cert.KernelIdeal.Payload
open Idealize.ShloMosaic.ValueIdx

variable (m : (ℓ : Loc nD τ sig) → Buf (Elt Ideal) ℓ)

/-! ## The arrays the region finds, and the blocks a point sees -/

/-- The normalized queries, the keys and the values as the region finds them. -/
def qarr (c : Dev nD) : Vec Ideal S256x256 .f32 := V m c main_v31
def karr (c : Dev nD) : Vec Ideal S100000x256 .f32 := V m c main_arg7
def varr (c : Dev nD) : Vec Ideal S100000x256 .f32 := V m c main_arg8
abbrev qblk (c : Dev nD) (t : Fin cfg0.N) : Vec Ideal S256x256 .f32 := iblk m c 0 t
abbrev kblk (c : Dev nD) (t : Fin cfg0.N) : Vec Ideal S2000x256 .f32 := iblk m c 1 t
abbrev vblk (c : Dev nD) (t : Fin cfg0.N) : Vec Ideal S2000x256 .f32 := iblk m c 2 t

theorem N50 : cfg0.N = 50 := N_0

/-- The index maps over the grid: the queries' block never moves, the keys' and values' block is the point's
    number, the outputs' block is the half. -/
theorem idx_in : ∀ t : Fin cfg0.N, win0_0.index t (0 : Fin 2) = 0 ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

theorem idx_out : ∀ t : Fin cfg0.N, win0_3.index t (0 : Fin 3) = t.val / 25 ∧ win0_3.index t (1 : Fin 3) = 0
    ∧ win0_3.index t (2 : Fin 3) = 0
    ∧ win0_4.index t (0 : Fin 3) = t.val / 25 ∧ win0_4.index t (1 : Fin 3) = 0 ∧ win0_4.index t (2 : Fin 3) = 0 :=
  (by decide +kernel : ∀ t : Fin grid0.N, _)

/-- Every point sees all the queries. -/
theorem qblk_eq (c : Dev nD) (t : Fin cfg0.N) : qblk m c t = qarr m c := by
  funext y
  unfold qarr
  show ((cfg0.win 0).blk t).view.read (Elt Ideal) (V m c main_v31) y = V m c main_v31 y
  rw [View.read_apply]
  have hidx : ((cfg0.win 0).blk t).view.emb y = y := by
    funext a; apply Fin.ext
    obtain ⟨e0, e1, -⟩ := idx_in t
    match a with
    | ⟨0, _⟩ => show win0_0.index t (0 : Fin 2) * 256 + 1 * (y 0).val = (y 0).val; omega
    | ⟨1, _⟩ => show win0_0.index t (1 : Fin 2) * 256 + 1 * (y 1).val = (y 1).val; omega
  exact congrArg (V m c main_v31) hidx

/-- Point `t`'s key tile is rows `2000·t …` of the keys. -/
theorem kblk_apply (c : Dev nD) (t : Fin cfg0.N) (j : Fin 2000) (hl : t.val * 2000 + j.val < 100000) (k : Fin 256) :
    kblk m c t (ix2 j k) = karr m c (ix2 ⟨t.val * 2000 + j.val, hl⟩ k) := by
  unfold karr
  show ((cfg0.win 1).blk t).view.read (Elt Ideal) (V m c main_arg7) (ix2 j k) = V m c main_arg7 _
  rw [View.read_apply]
  have hidx : ((cfg0.win 1).blk t).view.emb (ix2 j k) = ix2 ⟨t.val * 2000 + j.val, hl⟩ k := by
    funext a; apply Fin.ext
    obtain ⟨-, -, e0, e1, -⟩ := idx_in t
    match a with
    | ⟨0, _⟩ => show win0_1.index t (0 : Fin 2) * 2000 + 1 * j.val = t.val * 2000 + j.val; omega
    | ⟨1, _⟩ => show win0_1.index t (1 : Fin 2) * 256 + 1 * k.val = k.val; omega
  exact congrArg (V m c main_arg7) hidx

/-- Point `t`'s value tile is rows `2000·t …` of the values. -/
theorem vblk_apply (c : Dev nD) (t : Fin cfg0.N) (j : Fin 2000) (hl : t.val * 2000 + j.val < 100000) (h : Fin 256) :
    vblk m c t (ix2 j h) = varr m c (ix2 ⟨t.val * 2000 + j.val, hl⟩ h) := by
  unfold varr
  show ((cfg0.win 2).blk t).view.read (Elt Ideal) (V m c main_arg8) (ix2 j h) = V m c main_arg8 _
  rw [View.read_apply]
  have hidx : ((cfg0.win 2).blk t).view.emb (ix2 j h) = ix2 ⟨t.val * 2000 + j.val, hl⟩ h := by
    funext a; apply Fin.ext
    obtain ⟨-, -, -, -, e0, e1⟩ := idx_in t
    match a with
    | ⟨0, _⟩ => show win0_2.index t (0 : Fin 2) * 2000 + 1 * j.val = t.val * 2000 + j.val; omega
    | ⟨1, _⟩ => show win0_2.index t (1 : Fin 2) * 256 + 1 * h.val = h.val; omega
  exact congrArg (V m c main_arg8) hidx

/-! ## What one point adds -/

/-- The numerator's addend of point `n` (zero past the grid, where it is never used). -/
def numAdd (c : Dev nD) (n : ℕ) : S256x256.Idx → EReal := fun i =>
  if h : n < cfg0.N then ∑ j : Fin 2000, wgt (kblk m c ⟨n, h⟩) (qblk m c ⟨n, h⟩) (i 0) j * vblk m c ⟨n, h⟩ (ix2 j (i 1)) else 0

/-- The denominator's addend of point `n`. -/
def denAdd (c : Dev nD) (n : ℕ) : S256x1.Idx → EReal := fun i =>
  if h : n < cfg0.N then ∑ j : Fin 2000, wgt (kblk m c ⟨n, h⟩) (qblk m c ⟨n, h⟩) (i 0) j else 0

/-- The numerator's step at point `n`: the body's update of whatever the scratch held. -/
abbrev numStep (c : Dev nD) (n : ℕ) (h : n < cfg0.N) (acc : Vec Ideal S256x256 .f32) : Vec Ideal S256x256 .f32 :=
  k0_pay7 (F := Ideal) (kblk m c ⟨n, h⟩) (vblk m c ⟨n, h⟩) (qblk m c ⟨n, h⟩) acc

/-- The denominator's step at point `n`. -/
abbrev denStep (c : Dev nD) (n : ℕ) (h : n < cfg0.N) (acc : Vec Ideal S256x1 .f32) : Vec Ideal S256x1 .f32 :=
  k0_pay6 (F := Ideal) (kblk m c ⟨n, h⟩) (qblk m c ⟨n, h⟩) acc

theorem numStep_apply (c : Dev nD) (n : ℕ) (h : n < cfg0.N) (acc : Vec Ideal S256x256 .f32) (i : S256x256.Idx) :
    numStep m c n h acc i = acc i + numAdd m c n i := by
  obtain ⟨b, hh, rfl⟩ : ∃ (b : Fin 256) (hh : Fin 256), i = ix2 b hh := ⟨i 0, i 1, eq_ix2 i⟩
  unfold numAdd
  rw [dif_pos h]
  exact pay7_apply _ _ _ _ b hh

theorem denStep_apply (c : Dev nD) (n : ℕ) (h : n < cfg0.N) (acc : Vec Ideal S256x1 .f32) (i : S256x1.Idx) :
    denStep m c n h acc i = acc i + denAdd m c n i := by
  obtain ⟨b, u, rfl⟩ : ∃ (b : Fin 256) (u : Fin 1), i = ix2 b u := ⟨i 0, i 1, eq_ix2 i⟩
  unfold denAdd
  rw [dif_pos h]
  exact pay6_apply _ _ _ b u

/-! ## The carried scratch is the fold over the half's points so far -/

/-- The numerator scratch after point `n`. -/
abbrev numAt (c : Dev nD) (n : ℕ) (h : n < cfg0.N) : Vec Ideal S256x256 .f32 := (outsAt0 m c n h).2.2.1
/-- The denominator scratch after point `n`. -/
abbrev denAt (c : Dev nD) (n : ℕ) (h : n < cfg0.N) : Vec Ideal S256x1 .f32 := (outsAt0 m c n h).2.2.2

/-- At a half's first point both are one step from zero. -/
theorem scratch_first (c : Dev nD) (n : ℕ) (h : n < cfg0.N) (h0 : n % 25 = 0) :
    numAt m c n h = numStep m c n h (k0_pay3 (F := Ideal)) ∧ denAt m c n h = denStep m c n h (k0_pay4 (F := Ideal)) := by
  have hN : n < 50 := lt_of_lt_of_eq h N50
  have h1 : ¬(⟨n, h⟩ : Fin cfg0.N).val % 25 = 24 := by dsimp only; omega
  have e := outsAt0_A m c ⟨n, h⟩ h0 h1
  constructor
  · show (outsAt0 m c (⟨n, h⟩ : Fin cfg0.N).val (⟨n, h⟩ : Fin cfg0.N).isLt).2.2.1 = _
    rw [e]; dsimp only
    exact num_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) scM0_1 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩)
  · show (outsAt0 m c (⟨n, h⟩ : Fin cfg0.N).val (⟨n, h⟩ : Fin cfg0.N).isLt).2.2.2 = _
    rw [e]; dsimp only
    exact den_first (F := Ideal) c (grid0.coords ⟨n, h⟩) (ms0_0 ⟨n, h⟩) (hs0_0 ⟨n, h⟩) (ms0_1 ⟨n, h⟩) (hs0_1 ⟨n, h⟩) (ms0_2 ⟨n, h⟩) (hs0_2 ⟨n, h⟩) (ms0_3 ⟨n, h⟩) (hs0_3 ⟨n, h⟩) (ms0_4 ⟨n, h⟩) (hs0_4 ⟨n, h⟩) scM0_0 (Memref.isWhole_whole _) scM0_1 (Memref.isWhole_whole _) ((hcond0_0 ⟨n, h⟩).mpr h0) (fun hh => h1 ((hcond0_1 ⟨n, h⟩).mp hh)) (iblk m c 0 ⟨n, h⟩) (iblk m c 1 ⟨n, h⟩) (iblk m c 2 ⟨n, h⟩)

/-- At every other point both are one step from what the point before left. -/
theorem scratch_step (c : Dev nD) (n : ℕ) (h : n + 1 < cfg0.N) (h0 : ¬(n + 1) % 25 = 0) :
    numAt m c (n + 1) h = numStep m c (n + 1) h (numAt m c n (Nat.lt_of_succ_lt h))
    ∧ denAt m c (n + 1) h = denStep m c (n + 1) h (denAt m c n (Nat.lt_of_succ_lt h)) := by
  by_cases h1 : (n + 1) % 25 = 24
  · have e := outsAt0_C m c ⟨n + 1, h⟩ h0 h1
    constructor
    · show (outsAt0 m c (⟨n + 1, h⟩ : Fin cfg0.N).val (⟨n + 1, h⟩ : Fin cfg0.N).isLt).2.2.1 = _
      rw [e]; dsimp only
      exact num_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (outsAt0 m c n (Nat.lt_of_succ_lt h)).2.2.1 (outsAt0 m c n (Nat.lt_of_succ_lt h)).2.2.2
    · show (outsAt0 m c (⟨n + 1, h⟩ : Fin cfg0.N).val (⟨n + 1, h⟩ : Fin cfg0.N).isLt).2.2.2 = _
      rw [e]; dsimp only
      exact den_last (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) (fun hh => h0 ((hcond0_0 ⟨n + 1, h⟩).mp hh)) ((hcond0_1 ⟨n + 1, h⟩).mpr h1) (iblk m c 0 ⟨n + 1, h⟩) (iblk m c 1 ⟨n + 1, h⟩) (iblk m c 2 ⟨n + 1, h⟩) (outsAt0 m c n (Nat.lt_of_succ_lt h)).2.2.1 (outsAt0 m c n (Nat.lt_of_succ_lt h)).2.2.2
  · have e := outsAt0_B m c ⟨n + 1, h⟩ h0 h1
    constructor
    · show (outsAt0 m c (⟨n + 1, h⟩ : Fin cfg0.N).val (⟨n + 1, h⟩ : Fin cfg0.N).isLt).2.2.1 = _
      rw [e]; dsimp only
      exact num_mid (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (outsAt0 m c n (Nat.lt_of_succ_lt h)).2.2.1 (outsAt0 m c n (Nat.lt_of_succ_lt h)).2.2.2
    · show (outsAt0 m c (⟨n + 1, h⟩ : Fin cfg0.N).val (⟨n + 1, h⟩ : Fin cfg0.N).isLt).2.2.2 = _
      rw [e]; dsimp only
      exact den_mid (F := Ideal) c (grid0.coords ⟨n + 1, h⟩) (ms0_0 ⟨n + 1, h⟩) (hs0_0 ⟨n + 1, h⟩) (ms0_1 ⟨n + 1, h⟩) (hs0_1 ⟨n + 1, h⟩) (ms0_2 ⟨n + 1, h⟩) (hs0_2 ⟨n + 1, h⟩) (ms0_3 ⟨n + 1, h⟩) (hs0_3 ⟨n + 1, h⟩) (ms0_4 ⟨n + 1, h⟩) (hs0_4 ⟨n + 1, h⟩) scM0_0 (Memref.isWhole_whole _) scM0_1 (Memref.isWhole_whole _) (fun hh => h0 ((hcond0_0 ⟨n + 1, h⟩).mp hh)) (fun hh => h1 ((hcond0_1 ⟨n + 1, h⟩).mp hh)) (iblk m c 0 ⟨n + 1, h⟩) (iblk m c 1 ⟨n + 1, h⟩) (iblk m c 2 ⟨n + 1, h⟩) (outsAt0 m c n (Nat.lt_of_succ_lt h)).2.2.1 (outsAt0 m c n (Nat.lt_of_succ_lt h)).2.2.2

/-! ## The fold as a sum -/

/-- After point `t` the numerator scratch is the sum of the addends of its half's points up to `t`. -/
theorem numAt_eq (c : Dev nD) (t : ℕ) (ht : t < cfg0.N) (i : S256x256.Idx) :
    numAt m c t ht i = ∑ s ∈ Finset.range (t % 25 + 1), numAdd m c (25 * (t / 25) + s) i := by
  have h' : 25 * (t / 25) + t % 25 < cfg0.N := by rw [Nat.div_add_mod]; exact ht
  have e := Pipeline.eq_accAt_of_mod (N := cfg0.N) (fun n h => numAt m c n h) 25
      (fun n h => numStep m c n h (k0_pay3 (F := Ideal))) (fun n h acc => numStep m c n h acc)
      (fun n h h0 => (scratch_first m c n h h0).1) (fun n h h0 => (scratch_step m c n h h0).1) (by decide) t ht h'
  have e2 := Pipeline.accAt_add_apply (N := cfg0.N) (ι := S256x256.Idx) (β := EReal)
      (fun n h => numStep m c n h (k0_pay3 (F := Ideal))) (fun n h acc => numStep m c n h acc) (fun _ => 0) (numAdd m c)
      (25 * (t / 25)) 24
      (fun h i => by
        show numStep m c _ h (k0_pay3 (F := Ideal)) i = 0 + numAdd m c _ i
        rw [numStep_apply, pay3_apply])
      (fun n h acc i _ _ => numStep_apply m c n h acc i)
      (t % 25) (by omega) h' i
  exact (congrFun e i).trans (e2.trans (zero_add _))

/-- After point `t` the denominator scratch likewise. -/
theorem denAt_eq (c : Dev nD) (t : ℕ) (ht : t < cfg0.N) (i : S256x1.Idx) :
    denAt m c t ht i = ∑ s ∈ Finset.range (t % 25 + 1), denAdd m c (25 * (t / 25) + s) i := by
  have h' : 25 * (t / 25) + t % 25 < cfg0.N := by rw [Nat.div_add_mod]; exact ht
  have e := Pipeline.eq_accAt_of_mod (N := cfg0.N) (fun n h => denAt m c n h) 25
      (fun n h => denStep m c n h (k0_pay4 (F := Ideal))) (fun n h acc => denStep m c n h acc)
      (fun n h h0 => (scratch_first m c n h h0).2) (fun n h h0 => (scratch_step m c n h h0).2) (by decide) t ht h'
  have e2 := Pipeline.accAt_add_apply (N := cfg0.N) (ι := S256x1.Idx) (β := EReal)
      (fun n h => denStep m c n h (k0_pay4 (F := Ideal))) (fun n h acc => denStep m c n h acc) (fun _ => 0) (denAdd m c)
      (25 * (t / 25)) 24
      (fun h i => by
        show denStep m c _ h (k0_pay4 (F := Ideal)) i = 0 + denAdd m c _ i
        rw [denStep_apply, pay4_apply])
      (fun n h acc i _ _ => denStep_apply m c n h acc i)
      (t % 25) (by omega) h' i
  exact (congrFun e i).trans (e2.trans (zero_add _))

/-! ## What a half's last point writes back -/

/-- At a half's last point the output blocks are the two scratch buffers, a unit axis in front. -/
theorem out_blocks (c : Dev nD) (t : Fin cfg0.N) (h24 : t.val % 25 = 24) :
    (outsAt0 m c t.val t.isLt).1 = k0_pay1 (F := Ideal) (numAt m c t.val t.isLt)
    ∧ (outsAt0 m c t.val t.isLt).2.1 = k0_pay2 (F := Ideal) (denAt m c t.val t.isLt) := by
  have h0 : ¬t.val % 25 = 0 := by omega
  have e := outsAt0_C m c t h0 h24
  constructor
  · show (outsAt0 m c t.val t.isLt).1 = k0_pay1 (F := Ideal) (outsAt0 m c t.val t.isLt).2.2.1
    rw [e]; dsimp only
    exact (out_num (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun hh => h0 ((hcond0_0 t).mp hh)) ((hcond0_1 t).mpr h24) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2).trans
      (congrArg (k0_pay1 (F := Ideal)) (num_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun hh => h0 ((hcond0_0 t).mp hh)) ((hcond0_1 t).mpr h24) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2).symm)
  · show (outsAt0 m c t.val t.isLt).2.1 = k0_pay2 (F := Ideal) (outsAt0 m c t.val t.isLt).2.2.2
    rw [e]; dsimp only
    exact (out_den (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun hh => h0 ((hcond0_0 t).mp hh)) ((hcond0_1 t).mpr h24) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2).trans
      (congrArg (k0_pay2 (F := Ideal)) (den_last (F := Ideal) c (grid0.coords t) (ms0_0 t) (hs0_0 t) (ms0_1 t) (hs0_1 t) (ms0_2 t) (hs0_2 t) (ms0_3 t) (hs0_3 t) (ms0_4 t) (hs0_4 t) scM0_0 (Memref.isWhole_whole _) scM0_1 (Memref.isWhole_whole _) (fun hh => h0 ((hcond0_0 t).mp hh)) ((hcond0_1 t).mpr h24) (iblk m c 0 t) (iblk m c 1 t) (iblk m c 2 t) (outsAt0 m c (t.val - 1) (Nat.lt_of_le_of_lt (Nat.sub_le _ _) t.isLt)).2.2.1 (outsAt0 m c (t.val - 1) (Nat.lt_of_le_of_lt (Nat.sub_le _ _) t.isLt)).2.2.2).symm)

/-- Output 3 after the run: at `(p, b, h)` the numerator addends of half `p`'s 25 points, summed. -/
def out3 (c : Dev nD) : S2x256x256.Idx → EReal := fun i =>
  ∑ s ∈ Finset.range 25, numAdd m c (25 * (i 0).val + s) (ix2 ⟨(i 1).val, (i 1).isLt⟩ ⟨(i 2).val, (i 2).isLt⟩)

/-- Output 4 after the run: at `(p, b, 0)` the denominator addends of half `p`'s 25 points, summed. -/
def out4 (c : Dev nD) : S2x256x1.Idx → EReal := fun i =>
  ∑ s ∈ Finset.range 25, denAdd m c (25 * (i 0).val + s) (ix2 ⟨(i 1).val, (i 1).isLt⟩ ⟨(i 2).val, (i 2).isLt⟩)

theorem half_lt (t : Fin cfg0.N) : t.val / 25 < 2 := by
  have h : t.val < 50 := lt_of_lt_of_eq t.isLt N50
  omega

/-- What a flushing point writes back to output 3 is its block of `out3`. -/
theorem flushed3_eq (c : Dev nD) (t : Fin cfg0.N) (hf : (cfg0.win 3).flush t = true) :
    (dats m 0 c).flushed 3 t = ((cfg0.win 3).blk t).view.read (Elt Ideal) (out3 m c) := by
  have h24 : t.val % 25 = 24 := (flush0_3 t).mp hf
  show (cfg0.win 3).cut (grid0.coords t) ((dats m 0 c).after 3 t) = _
  rw [after0_3, (out_blocks m c t h24).1]
  funext y
  obtain ⟨u, b, h, rfl⟩ : ∃ (u : Fin 1) (b : Fin 256) (h : Fin 256), y = ix3 u b h := ⟨y 0, y 1, y 2, eq_ix3 y⟩
  rw [View.read_apply]
  have hidx : ((cfg0.win 3).blk t).view.emb (ix3 u b h) = ix3 (⟨t.val / 25, half_lt t⟩ : Fin 2) b h := by
    funext a; apply Fin.ext
    obtain ⟨e0, e1, e2, -⟩ := idx_out t
    have hu : u.val = 0 := by omega
    match a with
    | ⟨0, _⟩ => show win0_3.index t (0 : Fin 3) * 1 + 1 * u.val = t.val / 25; omega
    | ⟨1, _⟩ => show win0_3.index t (1 : Fin 3) * 256 + 1 * b.val = b.val; omega
    | ⟨2, _⟩ => show win0_3.index t (2 : Fin 3) * 256 + 1 * h.val = h.val; omega
  rw [hidx]
  show k0_pay1 (F := Ideal) (numAt m c t.val t.isLt) (ix3 u b h) = ∑ s ∈ Finset.range 25, numAdd m c (25 * (t.val / 25) + s) (ix2 b h)
  rw [pay1_apply, numAt_eq, h24]

/-- What a flushing point writes back to output 4 is its block of `out4`. -/
theorem flushed4_eq (c : Dev nD) (t : Fin cfg0.N) (hf : (cfg0.win 4).flush t = true) :
    (dats m 0 c).flushed 4 t = ((cfg0.win 4).blk t).view.read (Elt Ideal) (out4 m c) := by
  have h24 : t.val % 25 = 24 := (flush0_4 t).mp hf
  show (cfg0.win 4).cut (grid0.coords t) ((dats m 0 c).after 4 t) = _
  rw [after0_4, (out_blocks m c t h24).2]
  funext y
  obtain ⟨u, b, w, rfl⟩ : ∃ (u : Fin 1) (b : Fin 256) (w : Fin 1), y = ix3 u b w := ⟨y 0, y 1, y 2, eq_ix3 y⟩
  rw [View.read_apply]
  have hidx : ((cfg0.win 4).blk t).view.emb (ix3 u b w) = ix3 (⟨t.val / 25, half_lt t⟩ : Fin 2) b w := by
    funext a; apply Fin.ext
    obtain ⟨-, -, -, e0, e1, e2⟩ := idx_out t
    have hu : u.val = 0 := by omega
    match a with
    | ⟨0, _⟩ => show win0_4.index t (0 : Fin 3) * 1 + 1 * u.val = t.val / 25; omega
    | ⟨1, _⟩ => show win0_4.index t (1 : Fin 3) * 256 + 1 * b.val = b.val; omega
    | ⟨2, _⟩ => show win0_4.index t (2 : Fin 3) * 1 + 1 * w.val = w.val; omega
  rw [hidx]
  show k0_pay2 (F := Ideal) (denAt m c t.val t.isLt) (ix3 u b w) = ∑ s ∈ Finset.range 25, denAdd m c (25 * (t.val / 25) + s) (ix2 b w)
  rw [pay2_apply, denAt_eq, h24]

/-- An index of output 3 is in point `t`'s block iff each coordinate is in the block's range. -/
theorem mem_blk3 (t : Fin cfg0.N) (i : S2x256x256.Idx) :
    i ∈ ((cfg0.win 3).blk t).view.set ↔ ∀ a : Fin 3, win0_3.index t a * S1x256x256.size a ≤ (i a).val ∧ (i a).val < win0_3.index t a * S1x256x256.size a + S1x256x256.size a := by
  show i ∈ ((View.whole main_v32_0).slice (win0_3.rect t)).set ↔ _
  rw [View.set_slice_whole, Rect.mem_set_unit]
  exact Iff.rfl

theorem mem_blk4 (t : Fin cfg0.N) (i : S2x256x1.Idx) :
    i ∈ ((cfg0.win 4).blk t).view.set ↔ ∀ a : Fin 3, win0_4.index t a * S1x256x1.size a ≤ (i a).val ∧ (i a).val < win0_4.index t a * S1x256x1.size a + S1x256x1.size a := by
  show i ∈ ((View.whole main_v32_1).slice (win0_4.rect t)).set ↔ _
  rw [View.set_slice_whole, Rect.mem_set_unit]
  exact Iff.rfl

/-- Every index of output 3 is in the block its half's last point writes back. -/
theorem cover3 (i : S2x256x256.Idx) : ∃ t : Fin cfg0.N, (cfg0.win 3).flush t = true ∧ i ∈ ((cfg0.win 3).blk t).view.set := by
  have h0 : (i 0).val < 2 := (i 0).isLt
  have h1 : (i 1).val < 256 := (i 1).isLt
  have h2 : (i 2).val < 256 := (i 2).isLt
  have hlt : 25 * (i 0).val + 24 < cfg0.N := by rw [N50]; omega
  have hq : (25 * (i 0).val + 24) / 25 = (i 0).val := by omega
  refine ⟨⟨25 * (i 0).val + 24, hlt⟩, (flush0_3 _).mpr (by show (25 * (i 0).val + 24) % 25 = 24; omega), ?_⟩
  rw [mem_blk3]
  obtain ⟨e0, e1, e2, -⟩ := idx_out ⟨25 * (i 0).val + 24, hlt⟩
  have e0' : win0_3.index ⟨25 * (i 0).val + 24, hlt⟩ (0 : Fin 3) = (i 0).val := e0.trans hq
  intro a
  match a with
  | ⟨0, _⟩ => show win0_3.index ⟨25 * (i 0).val + 24, hlt⟩ (0 : Fin 3) * 1 ≤ (i 0).val ∧ (i 0).val < win0_3.index ⟨25 * (i 0).val + 24, hlt⟩ (0 : Fin 3) * 1 + 1; omega
  | ⟨1, _⟩ => show win0_3.index ⟨25 * (i 0).val + 24, hlt⟩ (1 : Fin 3) * 256 ≤ (i 1).val ∧ (i 1).val < win0_3.index ⟨25 * (i 0).val + 24, hlt⟩ (1 : Fin 3) * 256 + 256; omega
  | ⟨2, _⟩ => show win0_3.index ⟨25 * (i 0).val + 24, hlt⟩ (2 : Fin 3) * 256 ≤ (i 2).val ∧ (i 2).val < win0_3.index ⟨25 * (i 0).val + 24, hlt⟩ (2 : Fin 3) * 256 + 256; omega

theorem cover4 (i : S2x256x1.Idx) : ∃ t : Fin cfg0.N, (cfg0.win 4).flush t = true ∧ i ∈ ((cfg0.win 4).blk t).view.set := by
  have h0 : (i 0).val < 2 := (i 0).isLt
  have h1 : (i 1).val < 256 := (i 1).isLt
  have h2 : (i 2).val < 1 := (i 2).isLt
  have hlt : 25 * (i 0).val + 24 < cfg0.N := by rw [N50]; omega
  have hq : (25 * (i 0).val + 24) / 25 = (i 0).val := by omega
  refine ⟨⟨25 * (i 0).val + 24, hlt⟩, (flush0_4 _).mpr (by show (25 * (i 0).val + 24) % 25 = 24; omega), ?_⟩
  rw [mem_blk4]
  obtain ⟨-, -, -, e0, e1, e2⟩ := idx_out ⟨25 * (i 0).val + 24, hlt⟩
  have e0' : win0_4.index ⟨25 * (i 0).val + 24, hlt⟩ (0 : Fin 3) = (i 0).val := e0.trans hq
  intro a
  match a with
  | ⟨0, _⟩ => show win0_4.index ⟨25 * (i 0).val + 24, hlt⟩ (0 : Fin 3) * 1 ≤ (i 0).val ∧ (i 0).val < win0_4.index ⟨25 * (i 0).val + 24, hlt⟩ (0 : Fin 3) * 1 + 1; omega
  | ⟨1, _⟩ => show win0_4.index ⟨25 * (i 0).val + 24, hlt⟩ (1 : Fin 3) * 256 ≤ (i 1).val ∧ (i 1).val < win0_4.index ⟨25 * (i 0).val + 24, hlt⟩ (1 : Fin 3) * 256 + 256; omega
  | ⟨2, _⟩ => show win0_4.index ⟨25 * (i 0).val + 24, hlt⟩ (2 : Fin 3) * 1 ≤ (i 2).val ∧ (i 2).val < win0_4.index ⟨25 * (i 0).val + 24, hlt⟩ (2 : Fin 3) * 1 + 1; omega

/-- THE TWO OUTPUT ARRAYS after the run. -/
theorem final3 (c : Dev nD) : (dats m 0 c).arrAt 3 cfg0.N = out3 m c :=
  (dats m 0 c).arrAt_eq_of_cover 3 (out3 m c) (fun t hf => flushed3_eq m c t hf) cover3

theorem final4 (c : Dev nD) : (dats m 0 c).arrAt 4 cfg0.N = out4 m c :=
  (dats m 0 c).arrAt_eq_of_cover 4 (out4 m c) (fun t hf => flushed4_eq m c t hf) cover4

/-! ## The addends are the memory read's terms, a tile at a time -/

/-- The weight the body forms for row `j` of point `t`'s tile is the weight of key `2000·t + j`. -/
theorem wgt_tile (c : Dev nD) (t : Fin cfg0.N) (b : Fin 256) (j : Fin 2000) (hl : t.val * 2000 + j.val < 100000) :
    wgt (kblk m c t) (qblk m c t) b j = Cert.Spec.weight (qarr m c) (karr m c) b ⟨t.val * 2000 + j.val, hl⟩ := by
  unfold wgt Cert.Spec.weight Cert.Spec.sim unitRow Cert.Spec.unitKey
  rw [qblk_eq]
  simp only [kblk_apply m c t j hl]

theorem numAdd_tile (c : Dev nD) (n : ℕ) (hn : n < 50) (b h : Fin 256) :
    numAdd m c n (ix2 b h) = ∑ j : Fin 2000, Cert.Spec.numTerm (qarr m c) (karr m c) (varr m c) b h (n * 2000 + j.val) := by
  have hN : n < cfg0.N := by rw [N50]; exact hn
  unfold numAdd
  rw [dif_pos hN]
  refine Finset.sum_congr rfl fun j _ => ?_
  have hl : n * 2000 + j.val < 100000 := by have := j.isLt; omega
  unfold Cert.Spec.numTerm
  rw [dif_pos hl]
  show wgt (kblk m c ⟨n, hN⟩) (qblk m c ⟨n, hN⟩) b j * vblk m c ⟨n, hN⟩ (ix2 j h) = _
  rw [wgt_tile m c ⟨n, hN⟩ b j hl, vblk_apply m c ⟨n, hN⟩ j hl h]

theorem denAdd_tile (c : Dev nD) (n : ℕ) (hn : n < 50) (b : Fin 256) (u : Fin 1) :
    denAdd m c n (ix2 b u) = ∑ j : Fin 2000, Cert.Spec.denTerm (qarr m c) (karr m c) b (n * 2000 + j.val) := by
  have hN : n < cfg0.N := by rw [N50]; exact hn
  unfold denAdd
  rw [dif_pos hN]
  refine Finset.sum_congr rfl fun j _ => ?_
  have hl : n * 2000 + j.val < 100000 := by have := j.isLt; omega
  unfold Cert.Spec.denTerm
  rw [dif_pos hl]
  exact wgt_tile m c ⟨n, hN⟩ b j hl

/-- Output 3 in tile form. -/
theorem out3_tiles (c : Dev nD) (p : Fin 2) (b h : Fin 256) : out3 m c (ix3 p b h)
    = ∑ s ∈ Finset.range 25, ∑ j : Fin 2000, Cert.Spec.numTerm (qarr m c) (karr m c) (varr m c) b h ((25 * p.val + s) * 2000 + j.val) :=
  Finset.sum_congr rfl fun s hs => by
    have hs' : s < 25 := Finset.mem_range.mp hs
    have hp := p.isLt
    exact numAdd_tile m c (25 * p.val + s) (by omega) b h

/-- Output 4 in tile form. -/
theorem out4_tiles (c : Dev nD) (p : Fin 2) (b : Fin 256) (u : Fin 1) : out4 m c (ix3 p b u)
    = ∑ s ∈ Finset.range 25, ∑ j : Fin 2000, Cert.Spec.denTerm (qarr m c) (karr m c) b ((25 * p.val + s) * 2000 + j.val) :=
  Finset.sum_congr rfl fun s hs => by
    have hs' : s < 25 := Finset.mem_range.mp hs
    have hp := p.isLt
    exact denAdd_tile m c (25 * p.val + s) (by omega) b u

end Cert.KernelIdeal.KValue

end
-- ==== Proof.Tail.lean ====
import proofs.«401784_j47631187312927_3_alg».proof.Proof.Gen.KernelIdeal.Frame
import proofs.«401784_j47631187312927_3_alg».proof.Proof.Gen.ReferenceIdeal.Read
import Idealize.ShloMosaic.Lib.Pipeline.Value
import Idealize.ShloMosaic.Lib.StableHlo.Run
import Idealize.ShloMosaic.Lib.Tactic

/-!
# The host operations around the region

Before the region @main computes the gates (`%20`, `%21`, `%26`) and the normalized queries (`%31`) from the
arguments, by the same operations, in the same order, as the reference: the values the region finds there are the
reference's stages of the same names. After the region it sums the two halves' partial numerators and
denominators, divides (`combine`), and finishes the cell: `c' = %26 + %21 · tanh (combine …)`,
`h' = %20 · tanh c'`.
-/

set_option maxRecDepth 16384

noncomputable section

open Idealize.ShloMosaic Idealize.ShloMosaic.TcCoe Idealize.SL.Sem
open Idealize.ShloMosaic.Pipeline (Dat)

namespace Cert.KernelIdeal.Tail

open Cert.KernelIdeal Cert.KernelIdeal.Gen

variable {F : FTy → Type} [FloatOps F]
variable (m : (ℓ : Loc nD τ sig) → Buf (Elt F) ℓ)

/-- The two halves' partial sums combined: each summed over the halves, the numerator divided by the denominator
    column laid along the rows. -/
def combine (A3 : FVec F S2x256x256 .f32) (A4 : FVec F S2x256x1 .f32) : FVec F S256x256 .f32 :=
  Host.divf (Host.reduceAdd A3 (constant S_ .f32 0x00000000#32) reducesTo_S2x256x256_S256x256_d0 h_S_)
    (broadcastInDim S256x256 ![0, 1] bcast_S256x1_S256x256_0_1
      (Host.reduceAdd A4 (constant S_ .f32 0x00000000#32) reducesTo_S2x256x1_S256x1_d0 h_S_))

/-- The new cell state, from the gates the region found and the two output arrays after the run. -/
def cellOut (c : Dev nD) : FVec F S256x256 .f32 :=
  addf (V m c main_v26) (mulf (V m c main_v21)
    (Host.tanh (combine ((dats m 0 c).arrAt 3 cfg0.N) ((dats m 0 c).arrAt 4 cfg0.N))))

/-! What the operations after the region read. They start from the region's exit contents: the pipeline's arrays at
their final contents, every other buffer as the region found it. -/

/-- The buffer of `%20` is no array of the pipeline: at the region's exit it still holds what the region found there. -/
theorem exit_v20 (c : Dev nD) :
    Pipeline.withArrays (cfgs 0).spec c (V0 m c) (fun w => (dats m 0 c).arrAt w (cfgs 0).N) (Proc.devRef .tc main_v20) = V m c main_v20 :=
  Pipeline.withArrays_of_ne _ c (V0 m c) _ main_v20 (by exact (by decide : ∀ w, Pipeline.arrRef spec0 w ≠ main_v20))

/-- The buffer of `%21` is no array of the pipeline: at the region's exit it still holds what the region found there. -/
theorem exit_v21 (c : Dev nD) :
    Pipeline.withArrays (cfgs 0).spec c (V0 m c) (fun w => (dats m 0 c).arrAt w (cfgs 0).N) (Proc.devRef .tc main_v21) = V m c main_v21 :=
  Pipeline.withArrays_of_ne _ c (V0 m c) _ main_v21 (by exact (by decide : ∀ w, Pipeline.arrRef spec0 w ≠ main_v21))

/-- The buffer of `%26` is no array of the pipeline: at the region's exit it still holds what the region found there. -/
theorem exit_v26 (c : Dev nD) :
    Pipeline.withArrays (cfgs 0).spec c (V0 m c) (fun w => (dats m 0 c).arrAt w (cfgs 0).N) (Proc.devRef .tc main_v26) = V m c main_v26 :=
  Pipeline.withArrays_of_ne _ c (V0 m c) _ main_v26 (by exact (by decide : ∀ w, Pipeline.arrRef spec0 w ≠ main_v26))

/-- The buffer of the region's first result is array 3 of the pipeline: at the region's exit it holds that array's final contents. -/
theorem exit_v32_0 (c : Dev nD) :
    Pipeline.withArrays (cfgs 0).spec c (V0 m c) (fun w => (dats m 0 c).arrAt w (cfgs 0).N) (Proc.devRef .tc main_v32_0) = (dats m 0 c).arrAt 3 cfg0.N :=
  Pipeline.withArrays_arr spec0 winFacts0.arr_inj c _ _ 3

/-- The buffer of the region's second result is array 4 of the pipeline: at the region's exit it holds that array's final contents. -/
theorem exit_v32_1 (c : Dev nD) :
    Pipeline.withArrays (cfgs 0).spec c (V0 m c) (fun w => (dats m 0 c).arrAt w (cfgs 0).N) (Proc.devRef .tc main_v32_1) = (dats m 0 c).arrAt 4 cfg0.N :=
  Pipeline.withArrays_arr spec0 winFacts0.arr_inj c _ _ 4

/-- @main's second result (the new cell state) after the operations that follow the region. -/
theorem tail_v39 (c : Dev nD) :
    Pipeline.afterTail₀ cfgs (dats m) 0 (V0 m) [hostOps1] c main_v39 = cellOut m c := by
  -- the operations after the region, composed: each result read at its own buffer, down to the five buffers they start from
  unfold Pipeline.afterTail₀ cellOut combine
  simp only [hostOps1, List.flatten_cons, List.flatten_nil, List.append_nil]
  after_results_simp
  -- the two gates as the region found them, the two partial sums as the region left them
  rw [exit_v26, exit_v21, exit_v32_0, exit_v32_1]

/-- @main's first result (the new hidden state). -/
theorem tail_v41 (c : Dev nD) :
    Pipeline.afterTail₀ cfgs (dats m) 0 (V0 m) [hostOps1] c main_v41
      = mulf (V m c main_v20) (Host.tanh (cellOut m c)) := by
  -- the operations after the region, composed: each result read at its own buffer, down to the five buffers they start from
  unfold Pipeline.afterTail₀ cellOut combine
  simp only [hostOps1, List.flatten_cons, List.flatten_nil, List.append_nil]
  after_results_simp
  -- the three gates as the region found them, the two partial sums as the region left them
  rw [exit_v20, exit_v26, exit_v21, exit_v32_0, exit_v32_1]

/-- The gate values and the normalized queries the region finds are the reference's stages of the arguments. -/
theorem V_v20 (c : Dev nD) : V m c main_v20
    = Cert.ReferenceIdeal.Read.val_main_v20 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  -- the three operation lists as one, then each operation's result read at its own buffer: the operations composed
  dsimp only [V, V0]
  simp only [hostOps0, hostOps0_1, hostOps0_2, List.flatten_cons, List.flatten_nil, List.append_nil, List.cons_append, List.nil_append]
  after_results_simp
  -- the reference's stage is the same operations in the same order, over shapes and shape facts that are the same literals
  unfold Cert.ReferenceIdeal.Read.val_main_v20 Cert.ReferenceIdeal.Read.val_main_v17 Cert.ReferenceIdeal.Read.val_main_v16 Cert.ReferenceIdeal.Read.val_main_cst_0 Cert.ReferenceIdeal.Read.val_main_v15 Cert.ReferenceIdeal.Read.val_main_v14 Cert.ReferenceIdeal.Read.val_main_cst Cert.ReferenceIdeal.Read.val_main_v13 Cert.ReferenceIdeal.Read.val_main_v12 Cert.ReferenceIdeal.Read.val_main_v11 Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_v0
  rfl

theorem V_v21 (c : Dev nD) : V m c main_v21
    = Cert.ReferenceIdeal.Read.val_main_v21 (F := F) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  -- the three operation lists as one, then each operation's result read at its own buffer: the operations composed
  dsimp only [V, V0]
  simp only [hostOps0, hostOps0_1, hostOps0_2, List.flatten_cons, List.flatten_nil, List.append_nil, List.cons_append, List.nil_append]
  after_results_simp
  -- the reference's stage is the same operations in the same order, over shapes and shape facts that are the same literals
  unfold Cert.ReferenceIdeal.Read.val_main_v21 Cert.ReferenceIdeal.Read.val_main_v17 Cert.ReferenceIdeal.Read.val_main_v16 Cert.ReferenceIdeal.Read.val_main_cst_0 Cert.ReferenceIdeal.Read.val_main_v15 Cert.ReferenceIdeal.Read.val_main_v14 Cert.ReferenceIdeal.Read.val_main_cst Cert.ReferenceIdeal.Read.val_main_v13 Cert.ReferenceIdeal.Read.val_main_v12 Cert.ReferenceIdeal.Read.val_main_v11 Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_v0
  rfl

theorem V_v26 (c : Dev nD) : V m c main_v26
    = Cert.ReferenceIdeal.Read.val_main_v26 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  -- the three operation lists as one, then each operation's result read at its own buffer: the operations composed
  dsimp only [V, V0]
  simp only [hostOps0, hostOps0_1, hostOps0_2, List.flatten_cons, List.flatten_nil, List.append_nil, List.cons_append, List.nil_append]
  after_results_simp
  -- the reference's stage is the same operations in the same order, over shapes and shape facts that are the same literals
  unfold Cert.ReferenceIdeal.Read.val_main_v26 Cert.ReferenceIdeal.Read.val_main_v25 Cert.ReferenceIdeal.Read.val_main_v24 Cert.ReferenceIdeal.Read.val_main_v23 Cert.ReferenceIdeal.Read.val_main_v22 Cert.ReferenceIdeal.Read.val_main_v19 Cert.ReferenceIdeal.Read.val_main_v18 Cert.ReferenceIdeal.Read.val_main_v17 Cert.ReferenceIdeal.Read.val_main_v16 Cert.ReferenceIdeal.Read.val_main_cst_0 Cert.ReferenceIdeal.Read.val_main_v15 Cert.ReferenceIdeal.Read.val_main_v14 Cert.ReferenceIdeal.Read.val_main_cst Cert.ReferenceIdeal.Read.val_main_v13 Cert.ReferenceIdeal.Read.val_main_v12 Cert.ReferenceIdeal.Read.val_main_v11 Cert.ReferenceIdeal.Read.val_main_v10 Cert.ReferenceIdeal.Read.val_main_v9 Cert.ReferenceIdeal.Read.val_main_v8 Cert.ReferenceIdeal.Read.val_main_v7 Cert.ReferenceIdeal.Read.val_main_v6 Cert.ReferenceIdeal.Read.val_main_v5 Cert.ReferenceIdeal.Read.val_main_v4 Cert.ReferenceIdeal.Read.val_main_v3 Cert.ReferenceIdeal.Read.val_main_v2 Cert.ReferenceIdeal.Read.val_main_v1 Cert.ReferenceIdeal.Read.val_main_v0
  rfl

theorem V_v31 (c : Dev nD) : V m c main_v31
    = Cert.ReferenceIdeal.Read.val_main_v31 (F := F) (m ((c.tc : Thread nD τ).loc main_arg0)) := by
  -- the three operation lists as one, then each operation's result read at its own buffer: the operations composed
  dsimp only [V, V0]
  simp only [hostOps0, hostOps0_1, hostOps0_2, List.flatten_cons, List.flatten_nil, List.append_nil, List.cons_append, List.nil_append]
  after_results_simp
  -- the reference's stage is the same operations in the same order, over shapes and shape facts that are the same literals
  unfold Cert.ReferenceIdeal.Read.val_main_v31 Cert.ReferenceIdeal.Read.val_main_v30 Cert.ReferenceIdeal.Read.val_main_v29 Cert.ReferenceIdeal.Read.val_main_v28 Cert.ReferenceIdeal.Read.val_main_cst_1 Cert.ReferenceIdeal.Read.val_main_v27 Cert.ReferenceIdeal.Read.val_main_call0_v2 Cert.ReferenceIdeal.Read.val_main_call0_v1 Cert.ReferenceIdeal.Read.val_main_call0_v0 Cert.ReferenceIdeal.Read.val_main_call0_cst
  rfl

end Cert.KernelIdeal.Tail

end
-- ==== Proof.Combine.lean ====
import proofs.«401784_j47631187312927_3_alg».proof.Proof.Tail
import proofs.«401784_j47631187312927_3_alg».proof.Proof.Tiles
import Idealize.ShloMosaic.Lib.ValueIdx
import Idealize.ShloMosaic.Lib.Pipeline.Value
import Idealize.ShloMosaic.PureOps.Ideal.Laws

/-!
# Summing the halves and dividing gives the memory read

If output 3 holds at `(p, b, h)` the numerator's terms of half `p` — its 25 tiles of 2000 rows — summed, and
output 4 at `(p, b, 0)` the denominator's, then the host's sum over the two halves of each is the whole sum over
the 100000 keys (2 · 25 · 2000 rows regrouped), and their quotient is `Cert.Spec.mem`.
-/

noncomputable section

namespace Cert.KernelIdeal.Combine

open Cert.KernelIdeal Cert.KernelIdeal.Gen Cert.KernelIdeal.Tail Idealize.ShloMosaic Idealize.ShloMosaic.ValueIdx
open Cert.Spec

/-- The two halves of the numerator array can be summed away: dropping the leading axis of extent 2. -/
theorem reduces3 : S2x256x256.Reduces [0] S256x256 := by decide
/-- Likewise for the denominator column. -/
theorem reduces4 : S2x256x1.Reduces [0] S256x1 := by decide

/-- The host's sum over the leading axis of an `m × a × b` array, from an initial value that is zero, at `(i, j)`:
    the sum over the leading coordinate of the entries at `(p, i, j)`. -/
theorem hostSum0_apply {m a b : ℕ} {u : Shape} (x : FVec Ideal ⟨3, ![m, a, b]⟩ .f32) (init : u.Idx → Ideal .f32)
    (h' : (⟨3, ![m, a, b]⟩ : Shape).ReducesTo [0] ⟨2, ![a, b]⟩) (h : (⟨3, ![m, a, b]⟩ : Shape).Reduces [0] ⟨2, ![a, b]⟩)
    (hu : 0 < u.numel) (h0 : init (Shape.Idx.first hu) = 0) (i : Fin a) (j : Fin b) :
    Host.reduceAdd x init h' hu (ix2 i j) = ∑ p : Fin m, x (ix3 p i j) := by
  simp only [Host.reduceAdd, Ideal.hostReduceAdd_def]
  rw [Ideal.hostReduceAdd_single h' h, h0, zero_add]
  refine Finset.sum_congr rfl fun p _ => congrArg x ?_
  funext c
  refine Fin.ext ?_
  match c with
  | ⟨0, _⟩ => rfl
  | ⟨1, _⟩ => rfl
  | ⟨2, _⟩ => rfl

/-- A `256 × 1` column laid along the 256 columns reads, at `(b, h)`, the column's entry of row `b`. -/
theorem bcastCol_apply {α : Type} (y : S256x1.Idx → α) (b h : Fin 256) :
    broadcastInDim S256x256 ![0, 1] bcast_S256x1_S256x256_0_1 y (ix2 b h) = y (ix2 b (0 : Fin 1)) :=
  broadcastInDim_apply _ bcast_S256x1_S256x256_0_1 y (ix2 b h) (ix2 b (0 : Fin 1)) (fun a => match a with
    | ⟨0, _⟩ => by show b.val = if (256 : Nat) = 1 then 0 else b.val; rw [if_neg (by decide)]
    | ⟨1, _⟩ => by show 0 = if (1 : Nat) = 1 then 0 else h.val; rw [if_pos rfl])

theorem combine_eq (A3 : FVec Ideal S2x256x256 .f32) (A4 : FVec Ideal S2x256x1 .f32)
    (q : FVec Ideal S256x256 .f32) (K V : FVec Ideal S100000x256 .f32)
    (h3 : ∀ (p : Fin 2) (b h : Fin 256), A3 (ix3 p b h)
      = ∑ s ∈ Finset.range 25, ∑ j : Fin 2000, numTerm q K V b h ((25 * p.val + s) * 2000 + j.val))
    (h4 : ∀ (p : Fin 2) (b : Fin 256) (u : Fin 1), A4 (ix3 p b u)
      = ∑ s ∈ Finset.range 25, ∑ j : Fin 2000, denTerm q K b ((25 * p.val + s) * 2000 + j.val)) :
    combine (F := Ideal) A3 A4 = Cert.Spec.mem q K V := by
  funext i
  obtain ⟨b, h, rfl⟩ : ∃ b h, i = ix2 b h := ⟨i 0, i 1, eq_ix2 i⟩
  rw [Cert.Spec.mem_apply, numer_eq_sum, denom_eq_sum]
  unfold combine
  -- the quotient at (b, h): the halves' numerators summed, over the halves' denominators of row b summed
  show Ideal.div (Host.reduceAdd A3 (constant S_ .f32 0x00000000#32) reducesTo_S2x256x256_S256x256_d0 h_S_ (ix2 b h))
      (broadcastInDim S256x256 ![0, 1] bcast_S256x1_S256x256_0_1
        (Host.reduceAdd A4 (constant S_ .f32 0x00000000#32) reducesTo_S2x256x1_S256x1_d0 h_S_) (ix2 b h)) = _
  rw [bcastCol_apply,
    hostSum0_apply A3 _ reducesTo_S2x256x256_S256x256_d0 reduces3 h_S_ Ideal.ofBits_zero_f32 b h,
    hostSum0_apply A4 _ reducesTo_S2x256x1_S256x1_d0 reduces4 h_S_ Ideal.ofBits_zero_f32 b (0 : Fin 1)]
  -- each sum over 2 halves × 25 tiles × 2000 rows is the sum over the 100000 keys
  have hn : ∑ p : Fin 2, A3 (ix3 p b h) = ∑ l : Fin 100000, numTerm q K V b h l.val := by
    refine Eq.trans ?_ (Cert.Softmax.sum_tiles (fun l => numTerm q K V b h l))
    refine Finset.sum_congr rfl fun p _ => ?_
    rw [h3 p b h, Finset.sum_range]
    refine Finset.sum_congr rfl fun s _ => Finset.sum_congr rfl fun j _ => ?_
    rw [Nat.mul_comm 25 p.val]
  have hd : ∑ p : Fin 2, A4 (ix3 p b (0 : Fin 1)) = ∑ l : Fin 100000, denTerm q K b l.val := by
    refine Eq.trans ?_ (Cert.Softmax.sum_tiles (fun l => denTerm q K b l))
    refine Finset.sum_congr rfl fun p _ => ?_
    rw [h4 p b 0, Finset.sum_range]
    refine Finset.sum_congr rfl fun s _ => Finset.sum_congr rfl fun j _ => ?_
    rw [Nat.mul_comm 25 p.val]
  rw [hn, hd]

end Cert.KernelIdeal.Combine

end
-- ==== Proof.KMem.lean ====
import proofs.«401784_j47631187312927_3_alg».proof.Proof.KValue
import proofs.«401784_j47631187312927_3_alg».proof.Proof.Tail
import proofs.«401784_j47631187312927_3_alg».proof.Proof.Combine

/-!
# The kernel's memory read is `Cert.Spec.mem`

The two output arrays after the run, summed over the halves and divided by the host, are `Cert.Spec.mem` of the
normalized queries the region found (the reference's stage `%31` of the query argument), the keys and the values:
the arrays in tile form (`out3_tiles`, `out4_tiles`) regrouped into the sums over all 100000 keys.
-/

noncomputable section

open Idealize.ShloMosaic Idealize.ShloMosaic.TcCoe Idealize.SL.Sem

namespace Cert.KernelIdeal.KMem

open Cert.KernelIdeal Cert.KernelIdeal.Gen Cert.KernelIdeal.KValue Cert.KernelIdeal.Tail Cert.KernelIdeal.Combine

variable (m : (ℓ : Loc nD τ sig) → Buf (Elt Ideal) ℓ)

theorem kernel_mem (c : Dev nD) :
    combine (F := Ideal) ((dats m 0 c).arrAt 3 cfg0.N) ((dats m 0 c).arrAt 4 cfg0.N)
      = Cert.Spec.mem (Cert.ReferenceIdeal.Read.val_main_v31 (F := Ideal) (m ((c.tc : Thread nD τ).loc main_arg0))) (m ((c.tc : Thread nD τ).loc main_arg7)) (m ((c.tc : Thread nD τ).loc main_arg8)) := by
  rw [final3, final4]
  have e := combine_eq (out3 m c) (out4 m c) (qarr m c) (karr m c) (varr m c)
    (fun p b h => out3_tiles m c p b h) (fun p b u => out4_tiles m c p b u)
  rw [e]
  unfold qarr karr varr
  rw [V_v31 m c, V_main_arg7 m c, V_main_arg8 m c]

end Cert.KernelIdeal.KMem

end
-- ==== Proof.RefMem.lean ====
import proofs.«401784_j47631187312927_3_alg».proof.Proof.Gen.ReferenceIdeal.Read
import proofs.«401784_j47631187312927_3_alg».proof.Proof.Spec
import Idealize.ShloMosaic.PureOps.Ideal.Laws
import Idealize.ShloMosaic.Lib.ValueIdx

/-!
# The reference's memory read is `Cert.Spec.mem`

The reference normalizes the query rows (stage `%31`) and the key rows (`%36`), forms all similarities by one
matrix product (`%37`), takes the softmax along the keys — subtract the row maximum (`%38`–`%43`), exponentiate
(`%44`), divide by the row sum (`%45`–`%48`) — and applies the weights to the values by a second product (`%49`).
Entry by entry that is the softmax form of `Cert.Spec.softmax_form`, with the row maximum (a real number when
every similarity is real) as the shift.
-/

noncomputable section

namespace Cert.ReferenceIdeal.RefMem

open Cert.ReferenceIdeal Cert.ReferenceIdeal.Gen Cert.ReferenceIdeal.Read Idealize.ShloMosaic Idealize.ShloMosaic.ValueIdx
open Cert.Softmax

/-- Stage `%31` at `[b,k]`: the query entry divided by the clamped Euclidean norm of its row. -/
theorem v31_eq (x0 : FVec Ideal S256x256 .f32) (b k : Fin 256) :
    val_main_v31 (F := Ideal) x0 (ix2 b k)
      = Ideal.div (x0 (ix2 b k)) (max (Ideal.sqrt (∑ k' : Fin 256, x0 (ix2 b k') * x0 (ix2 b k'))) Cert.Spec.epsW) := by
  rw [val_main_v31_apply, val_main_v30_apply, val_main_v29_apply, val_main_v27_apply, val_main_v28_apply,
    val_main_cst_1_apply, val_main_call0_v2_apply, val_main_call0_v1_apply, val_main_call0_cst_apply]
  have e : ∀ k' : Fin 256, idx_main_call0_v1 (idx_main_call0_v2 (idx_main_v30 (ix2 b k))) k' = ix2 b k' := fun k' =>
    funext fun a => Fin.ext (by match a with | ⟨0, _⟩ => rfl | ⟨1, _⟩ => rfl)
  simp only [val_main_call0_v0_apply, e, Ideal.hostDivf_def, Ideal.hostUnary_sqrt_def, Ideal.maximumf_def,
    Ideal.mulf_def, Ideal.ofBits_def, Ideal.ofBits_zero_f32, zero_add]

/-- The normalized queries are real when the query input is. -/
theorem qn_real (x0 : FVec Ideal S256x256 .f32) (h0 : ∀ i, IsReal (x0 i)) (i : S256x256.Idx) :
    IsReal (val_main_v31 (F := Ideal) x0 i) := by
  obtain ⟨b, k, rfl⟩ : ∃ (b : Fin 256) (k : Fin 256), i = ix2 b k := ⟨i 0, i 1, eq_ix2 i⟩
  rw [v31_eq]
  exact normalize_real (fun k => x0 (ix2 b k)) (fun k => h0 _) Cert.Spec.epsW eps_real k

/-- Stage `%36` at `[l,k]` is the unit key: the key entry divided by the clamped Euclidean norm of its row. -/
theorem v36_eq (x7 : FVec Ideal S100000x256 .f32) (l : Fin 100000) (k : Fin 256) :
    val_main_v36 (F := Ideal) x7 (ix2 l k) = Cert.Spec.unitKey x7 l k := by
  rw [val_main_v36_apply, val_main_v35_apply, val_main_v34_apply, val_main_v32_apply, val_main_v33_apply,
    val_main_cst_2_apply, val_main_call1_v2_apply, val_main_call1_v1_apply, val_main_call1_cst_apply]
  have e : ∀ k' : Fin 256, idx_main_call1_v1 (idx_main_call1_v2 (idx_main_v35 (ix2 l k))) k' = ix2 l k' := fun k' =>
    funext fun a => Fin.ext (by match a with | ⟨0, _⟩ => rfl | ⟨1, _⟩ => rfl)
  simp only [val_main_call1_v0_apply, e, Ideal.hostDivf_def, Ideal.hostUnary_sqrt_def, Ideal.maximumf_def,
    Ideal.mulf_def, Ideal.ofBits_def, Ideal.ofBits_zero_f32, zero_add]
  rfl

/-- Stage `%37` at `[b,l]` is the similarity of query `b` and key `l`. -/
theorem v37_eq (x0 : FVec Ideal S256x256 .f32) (x7 : FVec Ideal S100000x256 .f32) (b : Fin 256) (l : Fin 100000) :
    val_main_v37 (F := Ideal) x0 x7 (ix2 b l) = Cert.Spec.sim (val_main_v31 (F := Ideal) x0) x7 b l := by
  rw [val_main_v37_apply]
  unfold Cert.Spec.sim
  refine Finset.sum_congr rfl fun k _ => ?_
  have el : lidx_main_v37 (ix2 b l) k = ix2 b k :=
    funext fun a => Fin.ext (by match a with | ⟨0, _⟩ => rfl | ⟨1, _⟩ => rfl)
  have er : ridx_main_v37 (ix2 b l) k = ix2 l k :=
    funext fun a => Fin.ext (by match a with | ⟨0, _⟩ => rfl | ⟨1, _⟩ => rfl)
  rw [el, er, v36_eq]

/-- The shape fact of the row maximum, in the form that names the inserted coordinate. -/
theorem reduces_S256x100000_S256_d1 : S256x100000.Reduces [1] S256 := by decide

/-- The maximum of two extended reals is commutative … -/
instance maximumf_comm : Std.Commutative (FloatOps.maximumf (F := Ideal) (φ := .f32)) :=
  ⟨fun a b => max_comm (a : EReal) b⟩
/-- … and associative. -/
instance maximumf_assoc : Std.Associative (FloatOps.maximumf (F := Ideal) (φ := .f32)) :=
  ⟨fun a b c => max_assoc (a : EReal) b c⟩

/-- Stage `%38` at `[b]`: the running maximum, from `⊥`, of the similarities of query `b`. -/
theorem v38_eq (x0 : FVec Ideal S256x256 .f32) (x7 : FVec Ideal S100000x256 .f32) (b : Fin 256) :
    val_main_v38 (F := Ideal) x0 x7 (ix1 b)
      = (Finset.univ : Finset (Fin 100000)).fold max (⊥ : EReal)
          (fun l => Cert.Spec.sim (val_main_v31 (F := Ideal) x0) x7 b l) := by
  unfold val_main_v38
  -- a reduction over one axis is the fold over that axis's coordinates, from the initial value's element
  rw [Host.reduce_eq_fold_single (α := EReal) (FloatOps.maximumf (F := Ideal) (φ := .f32))
    (val_main_v37 (F := Ideal) x0 x7) (val_main_cst_3 (F := Ideal)) reducesTo_S256x100000_S256_d1
    reduces_S256x100000_S256_d1 h_S_ (ix1 b)]
  -- the index `[b]` with the coordinate `l` inserted on the dropped axis is `[b,l]`
  have hl : ∀ l : Fin 100000, reduces_S256x100000_S256_d1.lift (ix1 b) l = ix2 b l := fun l =>
    funext fun a => Fin.ext (by match a with | ⟨0, _⟩ => rfl | ⟨1, _⟩ => rfl)
  have hf : (val_main_v37 (F := Ideal) x0 x7 ∘ reduces_S256x100000_S256_d1.lift (ix1 b))
      = fun l : Fin 100000 => Cert.Spec.sim (val_main_v31 (F := Ideal) x0) x7 b l :=
    funext fun (l : Fin 100000) => (congrArg (val_main_v37 (F := Ideal) x0 x7) (hl l)).trans (v37_eq x0 x7 b l)
  -- the initial value is the word of `-inf`
  have hi : val_main_cst_3 (F := Ideal) (Shape.Idx.first h_S_) = ⊥ := neg_inf_word
  rw [hf, hi]
  rfl

/-- Stage `%40` at `[b]`, the shift of row `b`: the maximum of `⊥` and the row maximum is the row maximum. -/
theorem v40_eq (x0 : FVec Ideal S256x256 .f32) (x7 : FVec Ideal S100000x256 .f32) (b : Fin 256) :
    val_main_v40 (F := Ideal) x0 x7 (ix1 b)
      = (Finset.univ : Finset (Fin 100000)).fold max (⊥ : EReal)
          (fun l => Cert.Spec.sim (val_main_v31 (F := Ideal) x0) x7 b l) := by
  rw [val_main_v40_apply, val_main_v39_apply, val_main_cst_4_apply, v38_eq, Ideal.maximumf_def, Ideal.ofBits_def,
    neg_inf_word]
  exact max_eq_right bot_le

/-- The shift of row `b` is a real number when queries and keys are real. -/
theorem v40_real (x0 : FVec Ideal S256x256 .f32) (x7 : FVec Ideal S100000x256 .f32)
    (h0 : ∀ i, IsReal (x0 i)) (h7 : ∀ i, IsReal (x7 i)) (b : Fin 256) :
    IsReal (val_main_v40 (F := Ideal) x0 x7 (ix1 b)) := by
  rw [v40_eq]
  exact foldmax_real (by decide) _ (fun l => Cert.Spec.sim_real _ _ (qn_real x0 h0) h7 b l)

/-- Stage `%44` at `[b,l]`: the exponential of the similarity less the shift of row `b`. -/
theorem v44_eq (x0 : FVec Ideal S256x256 .f32) (x7 : FVec Ideal S100000x256 .f32) (b : Fin 256) (l : Fin 100000) :
    val_main_v44 (F := Ideal) x0 x7 (ix2 b l)
      = Ideal.exp (Cert.Spec.sim (val_main_v31 (F := Ideal) x0) x7 b l - val_main_v40 (F := Ideal) x0 x7 (ix1 b)) := by
  rw [val_main_v44_apply, val_main_v43_apply, val_main_v42_apply, val_main_v41_apply, v37_eq]
  have e : idx_main_v41 (idx_main_v42 (ix2 b l)) = ix1 b :=
    funext fun a => Fin.ext (by match a with | ⟨0, _⟩ => rfl)
  rw [e]
  rfl

/-- Stage `%47` at `[b,l]`: the sum of row `b` of the exponentials (from the zero word). -/
theorem v47_eq (x0 : FVec Ideal S256x256 .f32) (x7 : FVec Ideal S100000x256 .f32) (b : Fin 256) (l : Fin 100000) :
    val_main_v47 (F := Ideal) x0 x7 (ix2 b l) = ∑ l' : Fin 100000, val_main_v44 (F := Ideal) x0 x7 (ix2 b l') := by
  rw [val_main_v47_apply, val_main_v46_apply, val_main_v45_apply, val_main_cst_5_apply]
  have e : ∀ k : Fin 100000, idx_main_v45 (idx_main_v46 (idx_main_v47 (ix2 b l))) k = ix2 b k := fun k =>
    funext fun a => Fin.ext (by match a with | ⟨0, _⟩ => rfl | ⟨1, _⟩ => rfl)
  simp only [e, Ideal.ofBits_def, Ideal.ofBits_zero_f32, zero_add]

/-- The reference's memory read, for real queries, keys and values, is `Cert.Spec.mem` of the normalized queries. -/
theorem ref_mem (x0 : FVec Ideal S256x256 .f32) (x7 x8 : FVec Ideal S100000x256 .f32)
    (h0 : ∀ i, IsReal (x0 i)) (h7 : ∀ i, IsReal (x7 i)) (h8 : ∀ i, IsReal (x8 i)) :
    val_main_v49 (F := Ideal) x0 x7 x8 = Cert.Spec.mem (val_main_v31 (F := Ideal) x0) x7 x8 := by
  funext i
  obtain ⟨b, h, rfl⟩ : ∃ (b : Fin 256) (h : Fin 256), i = ix2 b h := ⟨i 0, i 1, eq_ix2 i⟩
  -- the softmax form with the row maximum as the shift
  rw [val_main_v49_apply, ← Cert.Spec.softmax_form (val_main_v31 (F := Ideal) x0) x7 x8 (qn_real x0 h0) h7 h8
    (val_main_v40 (F := Ideal) x0 x7 (ix1 b)) (v40_real x0 x7 h0 h7 b) b h]
  refine Finset.sum_congr rfl fun l _ => ?_
  have el : lidx_main_v49 (ix2 b h) l = ix2 b l :=
    funext fun a => Fin.ext (by match a with | ⟨0, _⟩ => rfl | ⟨1, _⟩ => rfl)
  have er : ridx_main_v49 (ix2 b h) l = ix2 l h :=
    funext fun a => Fin.ext (by match a with | ⟨0, _⟩ => rfl | ⟨1, _⟩ => rfl)
  rw [el, er, val_main_v48_apply, v47_eq, Ideal.hostDivf_def]
  simp only [v44_eq]

end Cert.ReferenceIdeal.RefMem

end
-- ==== Proof.Finite.lean ====
import proofs.«401784_j47631187312927_3_alg».proof.Pre_finite_inputs
import proofs.«401784_j47631187312927_3_alg».proof.Proof.Gen.Pre_finite_inputs
import proofs.«401784_j47631187312927_3_alg».proof.Proof.Softmax
import Idealize.ShloMosaic.Lib.ReduceAll
import Idealize.ShloMosaic.Lib.ValueIdx
import Idealize.ShloMosaic.PureOps.Ideal.Laws

/-!
# The precondition, decoded

The precondition is the conjunction, over the nine inputs, of "every entry's absolute value is below +inf". At the
extended reals an entry `x` with `max x (-x) < ⊤` is neither `⊤` nor `⊥`: it is a real number. Only the
query input (argument 0), the keys (argument 7) and the values (argument 8) are needed downstream.
-/

noncomputable section

namespace Cert.Finite

open Idealize.ShloMosaic Cert.Pre_finite_inputs Cert.Softmax

/-- The word `0x7F800000` encodes `+inf`: the top of the extended reals. -/
theorem ofBits_inf : Ideal.ofBits .f32 0x7F800000#32 = (⊤ : EReal) := by
  simp [Ideal.ofBits, Ideal.ieee]

/-- An extended real whose absolute value `max x (-x)` is below `⊤` is neither `⊤` nor `⊥` (at either infinity the
    maximum is `⊤` itself): it is a real number. -/
theorem isReal_of_abs_lt_top (x : EReal) (h : max x (-x) < ⊤) : IsReal x := by
  induction x using EReal.rec with
  | bot => simp at h
  | coe r => exact ⟨r, rfl⟩
  | top => simp at h

/-- One conjunct of the precondition, at any shape: where the conjunction over all entries of "the absolute value is
    below `+inf`" is `1`, each entry's comparison is `1`, which at the extended reals says `max x (-x) < ⊤`; so
    every entry is real. -/
theorem real_of_all {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant S_ .f32 0x7F800000#32)))
          (constantI S_ 1 1#1) hr hu j = 1#1) (i : s.Idx) : IsReal (x i) := by
  -- the rank-0 result shape has a single index, so the conjunction ranges over every entry
  haveI : Subsingleton S_.Idx := ⟨fun a b => funext fun d => d.elim0⟩
  have h1 := Host.reduce_andi_all _ _ hr hu j e i
  -- the entry's comparison, spelled out: the absolute value is `max (x i) (-(x i))`, the broadcast scalar is the constant
  have h2 : Ideal.cmp .olt (max (x i) (-(x i))) (Ideal.ofBits .f32 0x7F800000#32) = 1#1 := h1
  rw [ofBits_inf] at h2
  refine isReal_of_abs_lt_top _ ?_
  by_contra hn
  simp [Ideal.cmp, hn] at h2

/-- Where the precondition's result word is `1`, every entry of the queries, the keys and the values is real. -/
theorem real_of_pre [Cert.Pre_finite_inputs.Facts]
    (a0 a1 a2 : FVec Ideal S256x256 .f32) (a3 : FVec Ideal S1280x256 .f32) (a4 : FVec Ideal S1280 .f32)
    (a5 : FVec Ideal S1280x256 .f32) (a6 : FVec Ideal S1280 .f32) (a7 a8 : FVec Ideal S100000x256 .f32)
    (h : Cert.Pre_finite_inputs.fn (F := Ideal) a0 a1 a2 a3 a4 a5 a6 a7 a8 = fun _ => 1#1) :
    (∀ i, IsReal (a0 i)) ∧ (∀ i, IsReal (a7 i)) ∧ (∀ i, IsReal (a8 i)) := by
  have h0 := congrFun h ValueIdx.ix0
  dsimp only [fn, fn_part1, fn_part2] at h0
  -- the nine conjuncts nest to the left, ((((((((c0 ∧ c1) ∧ c2) ∧ c3) ∧ c4) ∧ c5) ∧ c6) ∧ c7) ∧ c8): peel them from the right
  obtain ⟨h0, c8⟩ := IntOp.andi_eq_one.1 h0
  obtain ⟨h0, c7⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨h0, -⟩ := IntOp.andi_eq_one.1 h0
  obtain ⟨c0, -⟩ := IntOp.andi_eq_one.1 h0
  exact ⟨real_of_all a0 _ _ _ _ c0, real_of_all a7 _ _ _ _ c7, real_of_all a8 _ _ _ _ c8⟩

end Cert.Finite

end
-- ==== Proof.lean ====
/-
  A recurrent cell with a memory read: from the input `x`, the states `h`, `c`, two dense layers, and a table of
  100000 key rows with their value rows, the entry point returns `h' = o · tanh c'` and `c' = f·c + i·g + r · tanh mem`,
  where the gates `f, i, o, r`, the candidate `g` and the normalized queries come from plain host operations that
  are the same, operation for operation, in the kernel's entry point and in the reference, and

    mem[b,h] = softmax_l (cos (x_b, K_l)) · V[l,h]

  is what differs. The reference normalizes every key row by its clamped norm, takes all similarities by one matrix
  product, subtracts each row's maximum, exponentiates, divides by the row's sum, and multiplies by the values.
  The kernel walks the keys in 2 halves of 25 tiles of 2000 rows: per tile it normalizes the rows, forms the
  similarities and their exponentials WITHOUT subtracting a maximum, and adds `∑ⱼ exp sⱼ · V[j,h]` and `∑ⱼ exp sⱼ`
  to two accumulators carried across the half's steps; each half writes its two partial sums once, and the host
  adds the halves and divides.

  Over the extended reals the two agree when the inputs are finite: every similarity is then a real number, the row
  maximum `M` is real, `exp (s - M) = exp s / exp M`, and the factor `exp M` cancels between a weight and the row's
  sum (`Cert.Softmax.softmax_agree`); regrouping the sum over 100000 keys into halves, tiles and rows needs only that
  addition of extended reals is commutative and associative. The changes of float format inside the kernel are the
  identity on extended reals; the clamp `1e-8` is the same word on both sides and is never evaluated beyond being a
  positive real.

  Modules: Softmax (the algebra), Spec (`mem` as one function), Tiles (its sums term by term), Finite (the
  precondition read as "every entry is real"), Payload (the body's arithmetic at an entry), Pieces (what each control
  case leaves behind), KValue (the accumulators as folds, the two output arrays), Tail and Combine (the host
  operations around the region), KMem (the kernel's read is `mem`), RefMem (the reference's read is `mem`).
-/
import proofs.«401784_j47631187312927_3_alg».proof.Defs
import proofs.«401784_j47631187312927_3_alg».proof.Proof.Gen.Kernel
import proofs.«401784_j47631187312927_3_alg».proof.Proof.Gen.Kernel.Frame
import proofs.«401784_j47631187312927_3_alg».proof.Proof.Gen.KernelIdeal
import proofs.«401784_j47631187312927_3_alg».proof.Proof.Gen.KernelIdeal.Frame
import proofs.«401784_j47631187312927_3_alg».proof.Proof.Gen.ReferenceIdeal
import proofs.«401784_j47631187312927_3_alg».proof.Proof.Gen.ReferenceIdeal.Run
import proofs.«401784_j47631187312927_3_alg».proof.Proof.Gen.ReferenceIdeal.Read
import proofs.«401784_j47631187312927_3_alg».proof.Proof.Gen.Pre_finite_inputs
import proofs.«401784_j47631187312927_3_alg».proof.Proof.KMem
import proofs.«401784_j47631187312927_3_alg».proof.Proof.RefMem
import proofs.«401784_j47631187312927_3_alg».proof.Proof.Finite
import Idealize.ShloMosaic.Adequacy
import Idealize.ShloMosaic.Init

set_option maxRecDepth 16384

noncomputable section

namespace Cert.Proof

open Idealize.ShloMosaic Idealize.ShloMosaic.TcCoe Idealize.SL.Sem

/-! ## The three frames and the idealization -/

theorem frame_k : Cert.frame_Kernel := fun m ρ _ => Cert.Kernel.Gen.frame m ρ

theorem frame_ki : Cert.frame_KernelIdeal := fun m ρ _ => Cert.KernelIdeal.Gen.frame m ρ

/-- The reference has no kernel: its frame is its run with the results dropped. -/
theorem frame_ri : Cert.frame_ReferenceIdeal := fun m ρ _ =>
  (θ_run Cert.ReferenceIdeal.defs _ _).mono (fun _ h c => (h c).2.2) (Cert.ReferenceIdeal.Value.run (F := Ideal) m ρ)

/-- The ideal pass rewrote nothing. -/
theorem preserves : Cert.preserves_Kernel_KernelIdeal := trivial

/-! ## The kernel's run, read -/

section KernelRun

open Cert.KernelIdeal Cert.KernelIdeal.Gen Cert.KernelIdeal.Tail

variable (m : (ℓ : Loc nD τ sig) → Buf (Elt Ideal) ℓ) (ρ : Dev nD → PrngReg)

/-- The new cell state the kernel's entry point returns, as the reference's stages of the arguments around
    `Cert.Spec.mem`. -/
def cellK (c : Dev nD) : FVec Ideal S256x256 .f32 :=
  addf (Cert.ReferenceIdeal.Read.val_main_v26 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)))
    (mulf (Cert.ReferenceIdeal.Read.val_main_v21 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)))
      (Host.tanh (Cert.Spec.mem (Cert.ReferenceIdeal.Read.val_main_v31 (F := Ideal) (m ((c.tc : Thread nD τ).loc main_arg0)))
        (m ((c.tc : Thread nD τ).loc main_arg7)) (m ((c.tc : Thread nD τ).loc main_arg8)))))

/-- The new hidden state. -/
def hidK (c : Dev nD) : FVec Ideal S256x256 .f32 :=
  mulf (Cert.ReferenceIdeal.Read.val_main_v20 (F := Ideal) (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)))
    (Host.tanh (cellK m c))

theorem cellOut_eq (c : Dev nD) : cellOut m c = cellK m c := by
  unfold cellOut cellK
  rw [V_v26 m c, V_v21 m c, Cert.KernelIdeal.KMem.kernel_mem m c]

/-- Every weakly fair execution of the kernel's entry point ends with its two results at `hidK`, `cellK` and the
    arguments unchanged. -/
theorem kernel_run : θ_run defs (onTc (τ := τ) (main (F := Ideal))) ⟨m, fun _ => 0, ρ⟩ (fun r => ∀ c : Dev nD,
      r.2.mem ((c.tc : Thread nD τ).loc main_v41) = hidK m c
      ∧ r.2.mem ((c.tc : Thread nD τ).loc main_v39) = cellK m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨((h c).2 main_v41 (Pipeline.mem_restRefs_of main_v41 (by decide) (by decide))).trans
        ((tail_v41 m c).trans (by unfold hidK; rw [V_v20 m c, cellOut_eq m c])),
      ((h c).2 main_v39 (Pipeline.mem_restRefs_of main_v39 (by decide) (by decide))).trans
        ((tail_v39 m c).trans (cellOut_eq m c)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).1 1).trans (((dats m 0 c).arrAt_in 1 rfl _).trans ((A_eq m c 1).trans (V_main_arg7 m c))),
      ((h c).1 2).trans (((dats m 0 c).arrAt_in 2 rfl _).trans ((A_eq m c 2).trans (V_main_arg8 m c)))⟩)
    (run_main m ρ)

end KernelRun

/-! ## The two programs agree -/

/-- From memories that agree on the arguments, with every float input finite: the kernel's two results are the
    reference's stages around `Cert.Spec.mem` (`kernel_run`), and so are the reference's, whose memory read is the
    softmax form of the same function (`ref_mem`). -/
theorem algebraic : Cert.algebraic_KernelIdeal_ReferenceIdeal := by
  intro m ρ m' ρ' hpre hagree
  refine ⟨fun c => hidK m c, fun c => cellK m c, kernel_run m ρ, ?_⟩
  refine (θ_run Cert.ReferenceIdeal.defs _ _).mono (fun _ h c => ?_) (Cert.ReferenceIdeal.Value.run (F := Ideal) m' ρ')
  obtain ⟨a0, a1, a2, a3, a4, a5, a6, a7, a8⟩ := hagree c
  obtain ⟨f0, f7, f8⟩ := Cert.Finite.real_of_pre _ _ _ _ _ _ _ _ _ (hpre c)
  have hmem : Cert.ReferenceIdeal.Read.val_main_v49 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg7)) (m' ((c.tc : Thread Cert.ReferenceIdeal.nD Cert.ReferenceIdeal.τ).loc Cert.ReferenceIdeal.main_arg8))
      = Cert.Spec.mem (Cert.ReferenceIdeal.Read.val_main_v31 (F := Ideal) (m ((c.tc : Thread Cert.KernelIdeal.nD Cert.KernelIdeal.τ).loc Cert.KernelIdeal.main_arg0))) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) := by
    rw [a0, a7, a8]
    exact Cert.ReferenceIdeal.RefMem.ref_mem _ _ _ f0 f7 f8
  have hcell : Cert.ReferenceIdeal.Value.res_main_v52 m' c = cellK m c := by
    rw [Cert.ReferenceIdeal.Read.val_main_v52_eq]
    unfold Cert.ReferenceIdeal.Read.val_main_v52 Cert.ReferenceIdeal.Read.val_main_v51 Cert.ReferenceIdeal.Read.val_main_v50
    rw [hmem, a0, a1, a2, a3, a4, a5, a6]
    rfl
  have hhid : Cert.ReferenceIdeal.Value.res_main_v54 m' c = hidK m c := by
    rw [Cert.ReferenceIdeal.Read.val_main_v54_eq]
    unfold Cert.ReferenceIdeal.Read.val_main_v54 Cert.ReferenceIdeal.Read.val_main_v53
    rw [← Cert.ReferenceIdeal.Read.val_main_v52_eq, hcell, a0, a1, a3, a4, a5, a6]
    rfl
  exact ⟨((h c).1).trans hhid, ((h c).2.1).trans hcell, (h c).2.2⟩

/-! ## The claim -/

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
